-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128x128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S10000x128 .f32) (main_arg1 : FVec F S10000x10000 .f32) (main_arg2 : FVec F S10000x10000 .f32) (main_arg3 : FVec F S128x128 .f32) (main_arg4 : FVec F S128 .f32) (main_arg5 : FVec F S128x128 .f32) (main_arg6 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S12288x128 : Shape := ⟨2, ![12288, 128]⟩
abbrev S1x128 : Shape := ⟨2, ![1, 128]⟩
abbrev S400x4096 : Shape := ⟨2, ![400, 4096]⟩
abbrev S400x128 : Shape := ⟨2, ![400, 128]⟩
abbrev S4096x128 : Shape := ⟨2, ![4096, 128]⟩

abbrev nBuf : Space → Nat
  | .hbm => 13
  | .vmem => 13
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S_, .f32⟩
  | .hbm, ⟨9, _⟩ => ⟨S12288x128, .f32⟩
  | .hbm, ⟨10, _⟩ => ⟨S1x128, .f32⟩
  | .hbm, ⟨11, _⟩ => ⟨S1x128, .f32⟩
  | .hbm, ⟨12, _⟩ => ⟨S10000x128, .f32⟩
  | .local _ .vmem, ⟨0, _⟩ => ⟨S400x4096, .f32⟩
  | .local _ .vmem, ⟨1, _⟩ => ⟨S400x4096, .f32⟩
  | .local _ .vmem, ⟨2, _⟩ => ⟨S400x4096, .f32⟩
  | .local _ .vmem, ⟨3, _⟩ => ⟨S400x4096, .f32⟩
  | .local _ .vmem, ⟨4, _⟩ => ⟨S12288x128, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S400x128, .f32⟩
  | .local _ .vmem, ⟨10, _⟩ => ⟨S400x128, .f32⟩
  | .local _ .vmem, ⟨11, _⟩ => ⟨S400x128, .f32⟩
  | .local _ .vmem, ⟨12, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_call0_v0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![25, 3], ![false, false]⟩

def k0_off1 (i : grid0.Coords) : Fin 2 → Nat :=
  let arg1 : BitVec 32 := BitVec.ofNat 32 (i 1).val
  let c4096_i32 : BitVec 32 := 4096#32
  let v3 : BitVec 32 := Scalar.muli arg1 c4096_i32
  let v4 : Index := Scalar.indexCast v3
  let c0 : Index := 0#32
  ![v4.toNat, 0]
def k0_cond4 (i : grid0.Coords) : BitVec 1 :=
  let arg1 : BitVec 32 := BitVec.ofNat 32 (i 1).val
  let c2_i32_4 : BitVec 32 := 2#32
  let v14 : BitVec 1 := Scalar.cmpi .eq arg1 c2_i32_4
  let v15 : BitVec 32 := Scalar.extui v14
  let c0_i32_5 : BitVec 32 := 0#32
  let v16 : BitVec 1 := Scalar.cmpi .ne v15 c0_i32_5
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S400x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S400x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S12288x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S400x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  pads_S10000x128_S12288x128_022880_000 : S10000x128.Pads (![0, 0] : Fin 2 → Nat) ![2288, 0] ![0, 0] S12288x128
  h_S_ : 0 < S_.numel
  shapeCasts_S128_S1x128 : S128.ShapeCasts S1x128
  inb_S400x128_S400x128_0_0 : ∀ a, (![0, 0] : Fin 2 → Nat) a + S400x128.size a ≤ S400x128.size a
  h_S400x128 : 0 < S400x128.numel
  shapeCasts_S400x128_S400x128 : S400x128.ShapeCasts S400x128
  h_S4096x128 : 0 < S4096x128.numel
  shapeCasts_S4096x128_S4096x128 : S4096x128.ShapeCasts S4096x128
  bitsLt_bf16_f32 : FTy.bits .bf16 < FTy.bits .f32
  iota_S400x4096_d1_w32 : S400x4096.Iotas .tc 32 [1]
  inb_S400x4096_S400x4096_0_0 : ∀ a, (![0, 0] : Fin 2 → Nat) a + S400x4096.size a ≤ S400x4096.size a
  h_S400x4096 : 0 < S400x4096.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  dot_S400x4096_S4096x128_S400x128_1_0_0_1_n_n_wf : DotDims.WF S400x4096 S4096x128 S400x128 [1] [0] [0] [1] [] []
  dot_S400x128_S128x128_S400x128_1_0_0_1_n_n_wf : DotDims.WF S400x128 S128x128 S400x128 [1] [0] [0] [1] [] []
  hrank0 : 0 < grid0.rank
  k0_off1_inb : ∀ i : grid0.Coords, ∀ a, (k0_off1 i) a + S4096x128.size a ≤ S12288x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S400x4096.size a < S10000x10000.size a
  hwx0_0 : ∀ i : grid0.Coords, EltTy.bits .f32 = 32 ∨ (Rect.unit (s := S10000x10000) (fun a => cc0_transform_0 i a * S400x4096.size a) (fun a => (Pipeline.Clip.of (cc0_transform_0 i a) (S400x4096.size a) (S10000x10000.size a)).extent (S400x4096.size a)) fun a => Pipeline.Clip.inb (Pipeline.Clip.ok_of (hstart0_0 i a))).WholeWords (EltTy.packing .f32)
  hwxs0_0 : ∀ i : grid0.Coords, EltTy.bits .f32 = 32 ∨ (Rect.unit (s := S400x4096) (fun _ => 0) (fun a => (Pipeline.Clip.of (cc0_transform_0 i a) (S400x4096.size a) (S10000x10000.size a)).extent (S400x4096.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S400x4096.size a < S10000x10000.size a
  hwx0_1 : ∀ i : grid0.Coords, EltTy.bits .f32 = 32 ∨ (Rect.unit (s := S10000x10000) (fun a => cc0_transform_1 i a * S400x4096.size a) (fun a => (Pipeline.Clip.of (cc0_transform_1 i a) (S400x4096.size a) (S10000x10000.size a)).extent (S400x4096.size a)) fun a => Pipeline.Clip.inb (Pipeline.Clip.ok_of (hstart0_1 i a))).WholeWords (EltTy.packing .f32)
  hwxs0_1 : ∀ i : grid0.Coords, EltTy.bits .f32 = 32 ∨ (Rect.unit (s := S400x4096) (fun _ => 0) (fun a => (Pipeline.Clip.of (cc0_transform_1 i a) (S400x4096.size a) (S10000x10000.size a)).extent (S400x4096.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S12288x128.size a ≤ S12288x128.size a
  hwx0_2 : ∀ i : grid0.Coords, EltTy.bits .f32 = 32 ∨ (Rect.block (s := S12288x128) S12288x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x128.size a ≤ S10000x128.size a
  hwx0_7 : ∀ i : grid0.Coords, EltTy.bits .f32 = 32 ∨ (Rect.block (s := S10000x128) S400x128.size (cc0_transform_7 i) (hinb0_7 i)).WholeWords (EltTy.packing .f32)

variable [Facts₀]

def dot_S400x4096_S4096x128_S400x128_1_0_0_1_n_n : DotDims S400x4096 S4096x128 S400x128 where
  lhsContracting := [1]
  rhsContracting := [0]
  lhsNonContracting := [0]
  rhsNonContracting := [1]
  lhsBatch := []
  rhsBatch := []
  wf := dot_S400x4096_S4096x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpecClip (Memref.whole main_arg1) S400x4096.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg2) S400x4096.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_call0_v0) S12288x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v2) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S400x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond4 i == 1#1) | ⟨_ + 8, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S10000x128, .f32⟩
  | .hbm, ⟨8, _⟩ => ⟨S10000x128, .f32⟩
  | .hbm, ⟨9, _⟩ => ⟨S1x128, .f32⟩
  | .hbm, ⟨10, _⟩ => ⟨S10000x128, .f32⟩
  | .hbm, ⟨11, _⟩ => ⟨S10000x128, .f32⟩
  | .hbm, ⟨12, _⟩ => ⟨S10000x128, .f32⟩
  | .hbm, ⟨13, _⟩ => ⟨S10000x128, .f32⟩
  | .hbm, ⟨14, _⟩ => ⟨S1x128, .f32⟩
  | .hbm, ⟨15, _⟩ => ⟨S10000x128, .f32⟩
  | .hbm, ⟨16, _⟩ => ⟨S10000x128, .f32⟩
  | .hbm, ⟨17, _⟩ => ⟨S_, .f32⟩
  | .hbm, ⟨18, _⟩ => ⟨S10000x128, .f32⟩
  | .hbm, ⟨19, _⟩ => ⟨S10000x128, .f32⟩
  | .hbm, ⟨20, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_cst : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.IdealSide.Shared.lean ====
/-
  The factor-graph convolution kernel runs on a grid of 25 row tiles by 3 contraction tiles. At a point
  (i, k) the body meets one of three control cases, decided by k alone:
    k = 0 : both accumulators are reset to zero, then the unmasked product of the tile is added;
    k = 1 : the unmasked product of the tile is added;
    k = 2 : the product of the tile with the columns at or past 10000 replaced by zero is added, and the
            epilogue stores relu(acc_n · W_n + b_n) + (acc_e · W_e + b_e) into the output block.
  This module states the four branch conditions as propositions of the grid coordinates, decides each over
  the 75 points in closed form (k = t mod 3), records where the output window is idle and where it is
  written back, and names the memrefs the pipeline hands the body at a point.
-/
import proofs.«148361_g77704548319642_cont_9to1_m_740_8_alg».proof.Proof.Gen.KernelIdeal.Frame
import proofs.«148361_g77704548319642_cont_9to1_m_740_8_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.KernelIdeal Cert.KernelIdeal.Gen

/-! ## The branch conditions -/

/-- k = 0: the accumulators are reset. -/
abbrev condReset (i : grid0.Coords) : Prop := (Scalar.cmpi .ne (Scalar.extui (Scalar.cmpi .eq (BitVec.ofNat 32 (i 1).val) 0#32)) 0#32) = 1#1
/-- k = 2: the masked accumulation. -/
abbrev condMasked (i : grid0.Coords) : Prop := (Scalar.cmpi .ne (Scalar.extui (Scalar.cmpi .eq (BitVec.ofNat 32 (i 1).val) 2#32)) 0#32) = 1#1
/-- k < 2: the unmasked accumulation. -/
abbrev condPlain (i : grid0.Coords) : Prop := (Scalar.cmpi .ne (Scalar.extui (Scalar.cmpi .slt (BitVec.ofNat 32 (i 1).val) 2#32)) 0#32) = 1#1
/-- k = 2: the epilogue. -/
abbrev condEpi (i : grid0.Coords) : Prop := k0_cond4 i = 1#1

theorem hcondReset : ∀ t : Fin cfg0.N, condReset (grid0.coords t) ↔ t.val % 3 = 0 :=
  (by decide +kernel : ∀ t : Fin grid0.N, condReset (grid0.coords t) ↔ t.val % 3 = 0)
theorem hcondMasked : ∀ t : Fin cfg0.N, condMasked (grid0.coords t) ↔ t.val % 3 = 2 :=
  (by decide +kernel : ∀ t : Fin grid0.N, condMasked (grid0.coords t) ↔ t.val % 3 = 2)
theorem hcondPlain : ∀ t : Fin cfg0.N, condPlain (grid0.coords t) ↔ t.val % 3 ≠ 2 :=
  (by decide +kernel : ∀ t : Fin grid0.N, condPlain (grid0.coords t) ↔ t.val % 3 ≠ 2)
theorem hcondEpi : ∀ t : Fin cfg0.N, condEpi (grid0.coords t) ↔ t.val % 3 = 2 :=
  (by decide +kernel : ∀ t : Fin grid0.N, condEpi (grid0.coords t) ↔ t.val % 3 = 2)

/-! ## Where the windows are idle, and where the output block is written back -/

theorem live_in : ∀ (w : Fin 8), w ≠ 7 → ∀ t : Fin cfg0.N, cfg0.idle w (grid0.coords t) = false := by decide +kernel
theorem idle_out : ∀ t : Fin cfg0.N, t.val % 3 ≠ 2 → cfg0.idle 7 (grid0.coords t) = true := by decide +kernel
theorem live_out : ∀ t : Fin cfg0.N, t.val % 3 = 2 → cfg0.idle 7 (grid0.coords t) = false := by decide +kernel
theorem noFlush_out : ∀ t : Fin cfg0.N, t.val % 3 ≠ 2 → (cfg0.win 7).flush t = false := by decide +kernel

/-! ## The memrefs at a point -/

abbrev ms0 (t : Fin cfg0.N) : Memref sig .tc .vmem S400x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S400x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S12288x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S400x128 .f32 := win0_7.stage (cfg0.slots t 7)
abbrev hs7 (t : Fin cfg0.N) : (ms7 t).IsWhole := hstage0_7 ((cfg0.slots t 7).cast nbuf0_7)
/-- The two accumulators: whole scoped buffers of the kernel's own. -/
abbrev accN : Memref sig .tc .vmem S400x128 .f32 := Memref.whole cc0_scratch0
abbrev accE : Memref sig .tc .vmem S400x128 .f32 := Memref.whole cc0_scratch1
/-- Views through which an accumulator's and the output buffer's contents are stated. -/
abbrev VN : View sig .tc .vmem S400x128 .f32 := accN.view
abbrev VE : View sig .tc .vmem S400x128 .f32 := accE.view
abbrev VO : View sig .tc .vmem S400x128 .f32 := (Memref.whole cc0_stg7_0 : Memref sig .tc .vmem S400x128 .f32).view

/-- The region's invariant before the first point, with the two accumulators as memrefs owned at some contents. -/
theorem PhiA_eq (c : Dev nD) :
    (Pipeline.ΦA spec0 c : sProp 𝕄)
      = iprop(iprop((∃ d, owns (c : Thread nD τ) accN fullShare d) ∗ (∃ d, owns (c : Thread nD τ) accE fullShare d)) ∗ (∃ r, prngReg c r)) := by
  unfold Pipeline.ΦA; rw [scopedRest0_eq]; simp only [accN, accE, owns_whole]; try rfl

end Cert.KernelIdeal.Hand

end
-- ==== Proof.IdealSide.RunReset.lean ====
/-
  The body at a point with k = 0, on any whole staging memrefs: from the two adjacency tiles at contents
  x0 and x1, the padded feature matrix at xf, and the accumulators at anything, it runs to the end leaving
  the three inputs as they were and each accumulator with the stores it made written over it. The list of
  stores each accumulator ends with is found by the symbolic run itself.
-/
import proofs.«148361_g77704548319642_cont_9to1_m_740_8_alg».proof.Proof.IdealSide.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.KernelIdeal Cert.KernelIdeal.Gen

set_option maxHeartbeats 1000000 in
noncomputable def runReset (c : Dev nD) (i : grid0.Coords) (arg2 : Memref sig .tc .vmem S400x4096 .f32) (harg2 : arg2.IsWhole) (arg3 : Memref sig .tc .vmem S400x4096 .f32) (harg3 : arg3.IsWhole) (arg4 : Memref sig .tc .vmem S12288x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S400x128 .f32) (harg9 : arg9.IsWhole) (arg10 : Memref sig .tc .vmem S400x128 .f32) (harg10 : arg10.IsWhole) (arg11 : Memref sig .tc .vmem S400x128 .f32) (harg11 : arg11.IsWhole)
    (h1 : condReset i) (h2 : ¬condMasked i) (h3 : condPlain i) (h4 : ¬condEpi i)
    (x0 x1 : Vec F S400x4096 .f32) (xf : Vec F S12288x128 .f32) :
    Σ' (LN : List (View.Piece (Elt F) S400x128 .f32)), { LE : List (View.Piece (Elt F) S400x128 .f32) //
      ∀ (E : Set ℕ) (K : PUnit → sProp 𝕄),
        iprop(owns (c : Thread nD τ) arg2 fullShare x0 ∗ owns (c : Thread nD τ) arg3 fullShare x1 ∗ owns (c : Thread nD τ) arg4 fullShare xf
            ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare xf
                ∗ (∃ f, arg10.view.loc (c : Thread nD τ) ↦[arg10.view.set]{fullShare} arg10.view.writes (Elt F) f LN)
                ∗ (∃ f, arg11.view.loc (c : Thread nD τ) ↦[arg11.view.set]{fullShare} arg11.view.writes (Elt F) f LE)) -∗ K ⟨⟩))
          ⊢ wp frame (wpE (defs₀ (F := F)) Variants.none c none) E (cc0__fgc_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__fgc_kernel_eq_skeleton]; unfold cc0__fgc_kernel_skel
    unfold owns
    iintro ⟨⟨%f0, %hf0, H0⟩, ⟨%f1, %hf1, H1⟩, ⟨%f2, %hf2, H2⟩, ⟨%dn, %fn, -, HN⟩, ⟨%de, %fe, -, HE⟩, Hk⟩
    obtain rfl := harg2.eq_unread hf0; obtain rfl := harg3.eq_unread hf1; obtain rfl := harg4.eq_unread hf2
    sl_exec (disch := first | exact h1 | exact h2 | exact h3 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HN]; · iexists _; iexact HN
    iexists _; iexact HE

end Cert.KernelIdeal.Hand

end
-- ==== Proof.IdealSide.RunPlain.lean ====
/-
  The body at a point with k = 1, on any whole staging memrefs: from the two adjacency tiles at x0 and x1,
  the padded feature matrix at xf and the accumulators at the contents xn and xe the point before left, it
  runs to the end leaving the inputs as they were and each accumulator with its one store written.
-/
import proofs.«148361_g77704548319642_cont_9to1_m_740_8_alg».proof.Proof.IdealSide.RunReset

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.KernelIdeal Cert.KernelIdeal.Gen

set_option maxHeartbeats 1000000 in
noncomputable def runPlain (c : Dev nD) (i : grid0.Coords) (arg2 : Memref sig .tc .vmem S400x4096 .f32) (harg2 : arg2.IsWhole) (arg3 : Memref sig .tc .vmem S400x4096 .f32) (harg3 : arg3.IsWhole) (arg4 : Memref sig .tc .vmem S12288x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S400x128 .f32) (harg9 : arg9.IsWhole) (arg10 : Memref sig .tc .vmem S400x128 .f32) (harg10 : arg10.IsWhole) (arg11 : Memref sig .tc .vmem S400x128 .f32) (harg11 : arg11.IsWhole)
    (h1 : ¬condReset i) (h2 : ¬condMasked i) (h3 : condPlain i) (h4 : ¬condEpi i)
    (x0 x1 : Vec F S400x4096 .f32) (xf : Vec F S12288x128 .f32) (xn xe : Vec F S400x128 .f32) :
    Σ' (LN : List (View.Piece (Elt F) S400x128 .f32)), { LE : List (View.Piece (Elt F) S400x128 .f32) //
      ∀ (E : Set ℕ) (K : PUnit → sProp 𝕄),
        iprop(owns (c : Thread nD τ) arg2 fullShare x0 ∗ owns (c : Thread nD τ) arg3 fullShare x1 ∗ owns (c : Thread nD τ) arg4 fullShare xf
            ∗ owns (c : Thread nD τ) arg10 fullShare xn ∗ owns (c : Thread nD τ) arg11 fullShare xe
            ∗ (iprop(owns (c : Thread nD τ) arg2 fullShare x0 ∗ owns (c : Thread nD τ) arg3 fullShare x1 ∗ owns (c : Thread nD τ) arg4 fullShare xf
                ∗ (∃ f, arg10.view.loc (c : Thread nD τ) ↦[arg10.view.set]{fullShare} arg10.view.writes (Elt F) f LN)
                ∗ (∃ f, arg11.view.loc (c : Thread nD τ) ↦[arg11.view.set]{fullShare} arg11.view.writes (Elt F) f LE)) -∗ K ⟨⟩))
          ⊢ wp frame (wpE (defs₀ (F := F)) Variants.none c none) E (cc0__fgc_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__fgc_kernel_eq_skeleton]; unfold cc0__fgc_kernel_skel
    unfold owns
    iintro ⟨⟨%f0, %hf0, H0⟩, ⟨%f1, %hf1, H1⟩, ⟨%f2, %hf2, H2⟩, ⟨%fn, %hfn, HN⟩, ⟨%fe, %hfe, HE⟩, Hk⟩
    obtain rfl := harg2.eq_unread hf0; obtain rfl := harg3.eq_unread hf1; obtain rfl := harg4.eq_unread hf2
    obtain rfl := harg10.eq_unread hfn; obtain rfl := harg11.eq_unread hfe
    sl_exec (disch := first | exact h1 | exact h2 | exact h3 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HN]; · iexists _; iexact HN
    iexists _; iexact HE

end Cert.KernelIdeal.Hand

end
-- ==== Proof.IdealSide.RunEpi.lean ====
/-
  The body at a point with k = 2, on any whole staging memrefs: from the two adjacency tiles at x0 and x1,
  the padded feature matrix at xf, the two weight matrices and bias rows at their contents, the accumulators
  at the contents xn and xe the point before left and the output buffer at anything, it runs to the end
  leaving the inputs as they were, each accumulator with its one (masked) store written, and the output
  buffer with the epilogue's store written.
-/
import proofs.«148361_g77704548319642_cont_9to1_m_740_8_alg».proof.Proof.IdealSide.RunPlain

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.KernelIdeal Cert.KernelIdeal.Gen

set_option maxHeartbeats 1000000 in
noncomputable def runEpi (c : Dev nD) (i : grid0.Coords) (arg2 : Memref sig .tc .vmem S400x4096 .f32) (harg2 : arg2.IsWhole) (arg3 : Memref sig .tc .vmem S400x4096 .f32) (harg3 : arg3.IsWhole) (arg4 : Memref sig .tc .vmem S12288x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S400x128 .f32) (harg9 : arg9.IsWhole) (arg10 : Memref sig .tc .vmem S400x128 .f32) (harg10 : arg10.IsWhole) (arg11 : Memref sig .tc .vmem S400x128 .f32) (harg11 : arg11.IsWhole)
    (h1 : ¬condReset i) (h2 : condMasked i) (h3 : ¬condPlain i) (h4 : condEpi i)
    (x0 x1 : Vec F S400x4096 .f32) (xf : Vec F S12288x128 .f32) (xwn : Vec F S128x128 .f32) (xbn : Vec F S1x128 .f32)
    (xwe : Vec F S128x128 .f32) (xbe : Vec F S1x128 .f32) (xn xe : Vec F S400x128 .f32) :
    Σ' (LO : List (View.Piece (Elt F) S400x128 .f32)) (LN : List (View.Piece (Elt F) S400x128 .f32)), { LE : List (View.Piece (Elt F) S400x128 .f32) //
      ∀ (E : Set ℕ) (K : PUnit → sProp 𝕄),
        iprop(owns (c : Thread nD τ) arg2 fullShare x0 ∗ owns (c : Thread nD τ) arg3 fullShare x1 ∗ owns (c : Thread nD τ) arg4 fullShare xf
            ∗ owns (c : Thread nD τ) arg5 fullShare xwn ∗ owns (c : Thread nD τ) arg6 fullShare xbn ∗ owns (c : Thread nD τ) arg7 fullShare xwe ∗ owns (c : Thread nD τ) arg8 fullShare xbe
            ∗ (∃ d, owns (c : Thread nD τ) arg9 fullShare d)
            ∗ owns (c : Thread nD τ) arg10 fullShare xn ∗ owns (c : Thread nD τ) arg11 fullShare xe
            ∗ (iprop(owns (c : Thread nD τ) arg2 fullShare x0 ∗ owns (c : Thread nD τ) arg3 fullShare x1 ∗ owns (c : Thread nD τ) arg4 fullShare xf
                ∗ owns (c : Thread nD τ) arg5 fullShare xwn ∗ owns (c : Thread nD τ) arg6 fullShare xbn ∗ owns (c : Thread nD τ) arg7 fullShare xwe ∗ owns (c : Thread nD τ) arg8 fullShare xbe
                ∗ (∃ f, arg9.view.loc (c : Thread nD τ) ↦[arg9.view.set]{fullShare} arg9.view.writes (Elt F) f LO)
                ∗ (∃ f, arg10.view.loc (c : Thread nD τ) ↦[arg10.view.set]{fullShare} arg10.view.writes (Elt F) f LN)
                ∗ (∃ f, arg11.view.loc (c : Thread nD τ) ↦[arg11.view.set]{fullShare} arg11.view.writes (Elt F) f LE)) -∗ K ⟨⟩))
          ⊢ wp frame (wpE (defs₀ (F := F)) Variants.none c none) E (cc0__fgc_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__fgc_kernel_eq_skeleton]; unfold cc0__fgc_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fn, %hfn, HN⟩, ⟨%fe, %hfe, HE⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5; obtain rfl := harg8.eq_unread hf6
    obtain rfl := harg10.eq_unread hfn; obtain rfl := harg11.eq_unread hfe
    sl_exec (disch := first | exact h1 | exact h2 | exact h3 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HN]; · iexists _; iexact HN
    iexists _; iexact HE

end Cert.KernelIdeal.Hand

end
-- ==== Proof.IdealSide.Data.lean ====
/-
  The proof data of the one pipeline, for any float instance.
  The feature matrix, the two weight matrices and the two bias rows are resident: their windows hold the whole
  arrays at every point. An adjacency window's block at the point (i, k) is rows 400 i … 400 i + 399 and
  columns 4096 k … 4096 k + 4095 of its array; at k = 2 only the first 1808 columns lie inside the array, and
  what the rest of the staging buffer holds is not determined. The tile is therefore named with the
  undetermined part filled by the zero word; the masked product at k = 2 does not depend on the filler.
  What the two accumulators hold after each point is a recursion on the point: at k = 0 the product of the
  tile with the slab of features added to zero, at k = 1 and k = 2 the (masked, at k = 2) product added to
  what the point before left. The output buffer is stored at k = 2 only: the epilogue of the two accumulators.
-/
import proofs.«148361_g77704548319642_cont_9to1_m_740_8_alg».proof.Proof.IdealSide.Shared
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.KernelIdeal Cert.KernelIdeal.Gen

theorem hz2 : (![0, 0] : Fin 2 → Nat) = fun _ => 0 := funext fun a => by fin_cases a <;> rfl

/-- The slab of the padded feature matrix the body loads at a point: rows 4096 k … 4096 k + 4095. -/
def slab (i : grid0.Coords) (xf : Vec F S12288x128 .f32) : Vec F S4096x128 .f32 :=
  View.ld xf (Rect.unit (k0_off1 i) S4096x128.size (k0_off1_inb i))

variable (m : (ℓ : Loc nD τ sig) → Buf (Elt F) ℓ) (ρ : Dev nD → PrngReg)

/-- The filler: the zero word everywhere. -/
def zfill : S400x4096.Idx → Elt F .f32 := fun _ => Scalar.ofBits .f32 0#32

/-- The node adjacency's tile at point t, filled out past the array's end with the zero word. -/
def tileN (c : Dev nD) (t : Fin cfg0.N) : Vec F S400x4096 .f32 := win0_0.fill (grid0.coords t) zfill (iblk m c 0 t)
/-- The edge adjacency's tile at point t, likewise. -/
def tileE (c : Dev nD) (t : Fin cfg0.N) : Vec F S400x4096 .f32 := win0_1.fill (grid0.coords t) zfill (iblk m c 1 t)
/-- The resident operands, each named at its literal type. -/
abbrev featsBlk (c : Dev nD) (t : Fin cfg0.N) : Vec F S12288x128 .f32 := iblk m c 2 t
abbrev wnBlk (c : Dev nD) (t : Fin cfg0.N) : Vec F S128x128 .f32 := iblk m c 3 t
abbrev bnBlk (c : Dev nD) (t : Fin cfg0.N) : Vec F S1x128 .f32 := iblk m c 4 t
abbrev weBlk (c : Dev nD) (t : Fin cfg0.N) : Vec F S128x128 .f32 := iblk m c 5 t
abbrev beBlk (c : Dev nD) (t : Fin cfg0.N) : Vec F S1x128 .f32 := iblk m c 6 t

/-- What the output buffer and the two accumulators hold after the body at position n: (output, node
    accumulator, edge accumulator). At the points that store nothing into the output buffer its component is a
    placeholder nothing consults. -/
def outsAt (c : Dev nD) : (n : ℕ) → n < cfg0.N → Vec F S400x128 .f32 × Vec F S400x128 .f32 × Vec F S400x128 .f32
  | 0, hn =>
    (k0_pay1,
     k0_pay7 (slab (grid0.coords ⟨0, hn⟩) (featsBlk m c ⟨0, hn⟩)) (tileN m c ⟨0, hn⟩) k0_pay1,
     k0_pay8 (slab (grid0.coords ⟨0, hn⟩) (featsBlk m c ⟨0, hn⟩)) (tileE m c ⟨0, hn⟩) k0_pay2)
  | n + 1, hn =>
    if (n + 1) % 3 = 0 then
      (k0_pay1,
       k0_pay7 (slab (grid0.coords ⟨n + 1, hn⟩) (featsBlk m c ⟨n + 1, hn⟩)) (tileN m c ⟨n + 1, hn⟩) k0_pay1,
       k0_pay8 (slab (grid0.coords ⟨n + 1, hn⟩) (featsBlk m c ⟨n + 1, hn⟩)) (tileE m c ⟨n + 1, hn⟩) k0_pay2)
    else if (n + 1) % 3 = 2 then
      (k0_pay9
         (k0_pay5 (grid0.coords ⟨n + 1, hn⟩) (slab (grid0.coords ⟨n + 1, hn⟩) (featsBlk m c ⟨n + 1, hn⟩)) (tileN m c ⟨n + 1, hn⟩) (outsAt c n (Nat.lt_of_succ_lt hn)).2.1)
         (wnBlk m c ⟨n + 1, hn⟩) (bnBlk m c ⟨n + 1, hn⟩)
         (k0_pay6 (grid0.coords ⟨n + 1, hn⟩) (slab (grid0.coords ⟨n + 1, hn⟩) (featsBlk m c ⟨n + 1, hn⟩)) (tileE m c ⟨n + 1, hn⟩) (outsAt c n (Nat.lt_of_succ_lt hn)).2.2)
         (weBlk m c ⟨n + 1, hn⟩) (beBlk m c ⟨n + 1, hn⟩),
       k0_pay5 (grid0.coords ⟨n + 1, hn⟩) (slab (grid0.coords ⟨n + 1, hn⟩) (featsBlk m c ⟨n + 1, hn⟩)) (tileN m c ⟨n + 1, hn⟩) (outsAt c n (Nat.lt_of_succ_lt hn)).2.1,
       k0_pay6 (grid0.coords ⟨n + 1, hn⟩) (slab (grid0.coords ⟨n + 1, hn⟩) (featsBlk m c ⟨n + 1, hn⟩)) (tileE m c ⟨n + 1, hn⟩) (outsAt c n (Nat.lt_of_succ_lt hn)).2.2)
    else
      (k0_pay1,
       k0_pay7 (slab (grid0.coords ⟨n + 1, hn⟩) (featsBlk m c ⟨n + 1, hn⟩)) (tileN m c ⟨n + 1, hn⟩) (outsAt c n (Nat.lt_of_succ_lt hn)).2.1,
       k0_pay8 (slab (grid0.coords ⟨n + 1, hn⟩) (featsBlk m c ⟨n + 1, hn⟩)) (tileE m c ⟨n + 1, hn⟩) (outsAt c n (Nat.lt_of_succ_lt hn)).2.2)

/-- At a point with k = 0. -/
theorem outsAt_reset (c : Dev nD) (t : Fin cfg0.N) (h0 : t.val % 3 = 0) :
    outsAt m c t.val t.isLt =
      (k0_pay1,
       k0_pay7 (slab (grid0.coords t) (featsBlk m c t)) (tileN m c t) k0_pay1,
       k0_pay8 (slab (grid0.coords t) (featsBlk m c t)) (tileE m c t) k0_pay2) := by
  obtain ⟨n, hn⟩ := t
  cases n with
  | zero => rfl
  | succ n => exact if_pos h0

/-- At a point with k = 1: over what the point before left. -/
theorem outsAt_plain (c : Dev nD) (t : Fin cfg0.N) (h0 : ¬t.val % 3 = 0) (h2 : ¬t.val % 3 = 2) :
    outsAt m c t.val t.isLt =
      (k0_pay1,
       k0_pay7 (slab (grid0.coords t) (featsBlk m c t)) (tileN m c t) (outsAt m c (t.val - 1) (Nat.lt_of_le_of_lt (Nat.sub_le _ _) t.isLt)).2.1,
       k0_pay8 (slab (grid0.coords t) (featsBlk m c t)) (tileE m c t) (outsAt m c (t.val - 1) (Nat.lt_of_le_of_lt (Nat.sub_le _ _) t.isLt)).2.2) := by
  obtain ⟨n, hn⟩ := t
  cases n with
  | zero => exact absurd (Nat.zero_mod _) h0
  | succ n => exact (if_neg h0).trans (if_neg h2)

/-- At a point with k = 2: the masked product over what the point before left, and the epilogue. -/
theorem outsAt_epi (c : Dev nD) (t : Fin cfg0.N) (h2 : t.val % 3 = 2) :
    outsAt m c t.val t.isLt =
      (k0_pay9
         (k0_pay5 (grid0.coords t) (slab (grid0.coords t) (featsBlk m c t)) (tileN m c t) (outsAt m c (t.val - 1) (Nat.lt_of_le_of_lt (Nat.sub_le _ _) t.isLt)).2.1)
         (wnBlk m c t) (bnBlk m c t)
         (k0_pay6 (grid0.coords t) (slab (grid0.coords t) (featsBlk m c t)) (tileE m c t) (outsAt m c (t.val - 1) (Nat.lt_of_le_of_lt (Nat.sub_le _ _) t.isLt)).2.2)
         (weBlk m c t) (beBlk m c t),
       k0_pay5 (grid0.coords t) (slab (grid0.coords t) (featsBlk m c t)) (tileN m c t) (outsAt m c (t.val - 1) (Nat.lt_of_le_of_lt (Nat.sub_le _ _) t.isLt)).2.1,
       k0_pay6 (grid0.coords t) (slab (grid0.coords t) (featsBlk m c t)) (tileE m c t) (outsAt m c (t.val - 1) (Nat.lt_of_le_of_lt (Nat.sub_le _ _) t.isLt)).2.2) := by
  obtain ⟨n, hn⟩ := t
  cases n with
  | zero => exact absurd h2 (show ¬(0 % 3 = 2) by decide)
  | succ n => exact (if_neg (by dsimp only at h2 ⊢; omega)).trans (if_pos h2)

/-- The region's invariant before position n: before the first point every scratch buffer at anything; afterwards
    the two accumulators at what the point before left. -/
def PhiS (c : Dev nD) : (n : ℕ) → n ≤ cfg0.N → sProp 𝕄
  | 0, _ => Pipeline.ΦA spec0 c
  | n + 1, hn => iprop(iprop(owns (c : Thread nD τ) accN fullShare ((outsAt m c n hn).2.1) ∗ owns (c : Thread nD τ) accE fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accN fullShare ((outsAt m c n hn).2.1) ∗ owns (c : Thread nD τ) accE fullShare ((outsAt m c n hn).2.2)) ∗ (∃ r, prngReg c r)) := rfl

theorem PhiS_pos (c : Dev nD) (n : ℕ) (h : n ≤ cfg0.N) (hz : n ≠ 0) :
    PhiS m c n h = iprop(iprop(owns (c : Thread nD τ) accN fullShare ((outsAt m c (n - 1) (by omega)).2.1) ∗ owns (c : Thread nD τ) accE fullShare ((outsAt m c (n - 1) (by omega)).2.2)) ∗ (∃ r, prngReg c r)) := by
  cases n with
  | zero => exact absurd rfl hz
  | succ n => rfl

/-- The proof data: the arrays as the region finds them; after the body at point t the adjacency windows at
    their tiles, the resident windows at their blocks, the output buffer at the recursion's first component;
    the invariant the accumulators' contents. -/
def dats (_ : Fin 1) (c : Dev nD) : Dat τ (Elt F) Unit ℕ (UR sig nD τ) ℕ cfg0 c where
  A w := V m c (Pipeline.arrRef spec0 w)
  after w t := match w with
    | ⟨0, _⟩ => tileN m c t
    | ⟨1, _⟩ => tileE m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = tileN m c t := by dsimp only [dats]
theorem after_1 (c : Dev nD) (t : Fin cfg0.N) : (dats m 0 c).after 1 t = tileE m c t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = (outsAt m c t.val t.isLt).1 := by dsimp only [dats]

end Cert.KernelIdeal.Hand

end
-- ==== Proof.IdealSide.Pieces.lean ====
/-
  What each control case leaves in the accumulators and the output buffer, as a function of what it was handed.
  Every store of the body writes a whole buffer, so the last store into a buffer decides its contents:
  the accumulators end at the product added to what they held (to zero at k = 0, where the reset's store is read
  back), and at k = 2 the output buffer ends at the epilogue of the accumulators' new contents.
-/
import proofs.«148361_g77704548319642_cont_9to1_m_740_8_alg».proof.Proof.IdealSide.RunEpi
import proofs.«148361_g77704548319642_cont_9to1_m_740_8_alg».proof.Proof.IdealSide.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.KernelIdeal Cert.KernelIdeal.Gen

/-! ## The stores cover each buffer they touch -/

theorem cov_reset_n (c : Dev nD) (i : grid0.Coords) (arg2 : Memref sig .tc .vmem S400x4096 .f32) (harg2 : arg2.IsWhole) (arg3 : Memref sig .tc .vmem S400x4096 .f32) (harg3 : arg3.IsWhole) (arg4 : Memref sig .tc .vmem S12288x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S400x128 .f32) (harg9 : arg9.IsWhole) (arg10 : Memref sig .tc .vmem S400x128 .f32) (harg10 : arg10.IsWhole) (arg11 : Memref sig .tc .vmem S400x128 .f32) (harg11 : arg11.IsWhole) (h1 : condReset i) (h2 : ¬condMasked i) (h3 : condPlain i) (h4 : ¬condEpi i) (x0 x1 : Vec F S400x4096 .f32) (xf : Vec F S12288x128 .f32) (y : S400x128.Idx) :
    ∃ pc ∈ (runReset c i arg2 harg2 arg3 harg3 arg4 harg4 arg5 harg5 arg6 harg6 arg7 harg7 arg8 harg8 arg9 harg9 arg10 harg10 arg11 harg11 h1 h2 h3 h4 x0 x1 xf).1, y ∈ pc.1.set :=
  View.cover_of_tiledL (runReset c i arg2 harg2 arg3 harg3 arg4 harg4 arg5 harg5 arg6 harg6 arg7 harg7 arg8 harg8 arg9 harg9 arg10 harg10 arg11 harg11 h1 h2 h3 h4 x0 x1 xf).1 S400x128.size (by sl_kernel_rfl) y

theorem cov_reset_e (c : Dev nD) (i : grid0.Coords) (arg2 : Memref sig .tc .vmem S400x4096 .f32) (harg2 : arg2.IsWhole) (arg3 : Memref sig .tc .vmem S400x4096 .f32) (harg3 : arg3.IsWhole) (arg4 : Memref sig .tc .vmem S12288x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S400x128 .f32) (harg9 : arg9.IsWhole) (arg10 : Memref sig .tc .vmem S400x128 .f32) (harg10 : arg10.IsWhole) (arg11 : Memref sig .tc .vmem S400x128 .f32) (harg11 : arg11.IsWhole) (h1 : condReset i) (h2 : ¬condMasked i) (h3 : condPlain i) (h4 : ¬condEpi i) (x0 x1 : Vec F S400x4096 .f32) (xf : Vec F S12288x128 .f32) (y : S400x128.Idx) :
    ∃ pc ∈ (runReset c i arg2 harg2 arg3 harg3 arg4 harg4 arg5 harg5 arg6 harg6 arg7 harg7 arg8 harg8 arg9 harg9 arg10 harg10 arg11 harg11 h1 h2 h3 h4 x0 x1 xf).2.1, y ∈ pc.1.set :=
  View.cover_of_tiledL (runReset c i arg2 harg2 arg3 harg3 arg4 harg4 arg5 harg5 arg6 harg6 arg7 harg7 arg8 harg8 arg9 harg9 arg10 harg10 arg11 harg11 h1 h2 h3 h4 x0 x1 xf).2.1 S400x128.size (by sl_kernel_rfl) y

theorem cov_plain_n (c : Dev nD) (i : grid0.Coords) (arg2 : Memref sig .tc .vmem S400x4096 .f32) (harg2 : arg2.IsWhole) (arg3 : Memref sig .tc .vmem S400x4096 .f32) (harg3 : arg3.IsWhole) (arg4 : Memref sig .tc .vmem S12288x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S400x128 .f32) (harg9 : arg9.IsWhole) (arg10 : Memref sig .tc .vmem S400x128 .f32) (harg10 : arg10.IsWhole) (arg11 : Memref sig .tc .vmem S400x128 .f32) (harg11 : arg11.IsWhole) (h1 : ¬condReset i) (h2 : ¬condMasked i) (h3 : condPlain i) (h4 : ¬condEpi i) (x0 x1 : Vec F S400x4096 .f32) (xf : Vec F S12288x128 .f32) (xn xe : Vec F S400x128 .f32) (y : S400x128.Idx) :
    ∃ pc ∈ (runPlain c i arg2 harg2 arg3 harg3 arg4 harg4 arg5 harg5 arg6 harg6 arg7 harg7 arg8 harg8 arg9 harg9 arg10 harg10 arg11 harg11 h1 h2 h3 h4 x0 x1 xf xn xe).1, y ∈ pc.1.set :=
  View.cover_of_tiledL (runPlain c i arg2 harg2 arg3 harg3 arg4 harg4 arg5 harg5 arg6 harg6 arg7 harg7 arg8 harg8 arg9 harg9 arg10 harg10 arg11 harg11 h1 h2 h3 h4 x0 x1 xf xn xe).1 S400x128.size (by sl_kernel_rfl) y

theorem cov_plain_e (c : Dev nD) (i : grid0.Coords) (arg2 : Memref sig .tc .vmem S400x4096 .f32) (harg2 : arg2.IsWhole) (arg3 : Memref sig .tc .vmem S400x4096 .f32) (harg3 : arg3.IsWhole) (arg4 : Memref sig .tc .vmem S12288x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S400x128 .f32) (harg9 : arg9.IsWhole) (arg10 : Memref sig .tc .vmem S400x128 .f32) (harg10 : arg10.IsWhole) (arg11 : Memref sig .tc .vmem S400x128 .f32) (harg11 : arg11.IsWhole) (h1 : ¬condReset i) (h2 : ¬condMasked i) (h3 : condPlain i) (h4 : ¬condEpi i) (x0 x1 : Vec F S400x4096 .f32) (xf : Vec F S12288x128 .f32) (xn xe : Vec F S400x128 .f32) (y : S400x128.Idx) :
    ∃ pc ∈ (runPlain c i arg2 harg2 arg3 harg3 arg4 harg4 arg5 harg5 arg6 harg6 arg7 harg7 arg8 harg8 arg9 harg9 arg10 harg10 arg11 harg11 h1 h2 h3 h4 x0 x1 xf xn xe).2.1, y ∈ pc.1.set :=
  View.cover_of_tiledL (runPlain c i arg2 harg2 arg3 harg3 arg4 harg4 arg5 harg5 arg6 harg6 arg7 harg7 arg8 harg8 arg9 harg9 arg10 harg10 arg11 harg11 h1 h2 h3 h4 x0 x1 xf xn xe).2.1 S400x128.size (by sl_kernel_rfl) y

theorem cov_epi_o (c : Dev nD) (i : grid0.Coords) (arg2 : Memref sig .tc .vmem S400x4096 .f32) (harg2 : arg2.IsWhole) (arg3 : Memref sig .tc .vmem S400x4096 .f32) (harg3 : arg3.IsWhole) (arg4 : Memref sig .tc .vmem S12288x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S400x128 .f32) (harg9 : arg9.IsWhole) (arg10 : Memref sig .tc .vmem S400x128 .f32) (harg10 : arg10.IsWhole) (arg11 : Memref sig .tc .vmem S400x128 .f32) (harg11 : arg11.IsWhole) (h1 : ¬condReset i) (h2 : condMasked i) (h3 : ¬condPlain i) (h4 : condEpi i) (x0 x1 : Vec F S400x4096 .f32) (xf : Vec F S12288x128 .f32) (xwn : Vec F S128x128 .f32) (xbn : Vec F S1x128 .f32) (xwe : Vec F S128x128 .f32) (xbe : Vec F S1x128 .f32) (xn xe : Vec F S400x128 .f32) (y : S400x128.Idx) :
    ∃ pc ∈ (runEpi c i arg2 harg2 arg3 harg3 arg4 harg4 arg5 harg5 arg6 harg6 arg7 harg7 arg8 harg8 arg9 harg9 arg10 harg10 arg11 harg11 h1 h2 h3 h4 x0 x1 xf xwn xbn xwe xbe xn xe).1, y ∈ pc.1.set :=
  View.cover_of_tiledL (runEpi c i arg2 harg2 arg3 harg3 arg4 harg4 arg5 harg5 arg6 harg6 arg7 harg7 arg8 harg8 arg9 harg9 arg10 harg10 arg11 harg11 h1 h2 h3 h4 x0 x1 xf xwn xbn xwe xbe xn xe).1 S400x128.size (by sl_kernel_rfl) y

theorem cov_epi_n (c : Dev nD) (i : grid0.Coords) (arg2 : Memref sig .tc .vmem S400x4096 .f32) (harg2 : arg2.IsWhole) (arg3 : Memref sig .tc .vmem S400x4096 .f32) (harg3 : arg3.IsWhole) (arg4 : Memref sig .tc .vmem S12288x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S400x128 .f32) (harg9 : arg9.IsWhole) (arg10 : Memref sig .tc .vmem S400x128 .f32) (harg10 : arg10.IsWhole) (arg11 : Memref sig .tc .vmem S400x128 .f32) (harg11 : arg11.IsWhole) (h1 : ¬condReset i) (h2 : condMasked i) (h3 : ¬condPlain i) (h4 : condEpi i) (x0 x1 : Vec F S400x4096 .f32) (xf : Vec F S12288x128 .f32) (xwn : Vec F S128x128 .f32) (xbn : Vec F S1x128 .f32) (xwe : Vec F S128x128 .f32) (xbe : Vec F S1x128 .f32) (xn xe : Vec F S400x128 .f32) (y : S400x128.Idx) :
    ∃ pc ∈ (runEpi c i arg2 harg2 arg3 harg3 arg4 harg4 arg5 harg5 arg6 harg6 arg7 harg7 arg8 harg8 arg9 harg9 arg10 harg10 arg11 harg11 h1 h2 h3 h4 x0 x1 xf xwn xbn xwe xbe xn xe).2.1, y ∈ pc.1.set :=
  View.cover_of_tiledL (runEpi c i arg2 harg2 arg3 harg3 arg4 harg4 arg5 harg5 arg6 harg6 arg7 harg7 arg8 harg8 arg9 harg9 arg10 harg10 arg11 harg11 h1 h2 h3 h4 x0 x1 xf xwn xbn xwe xbe xn xe).2.1 S400x128.size (by sl_kernel_rfl) y

theorem cov_epi_e (c : Dev nD) (i : grid0.Coords) (arg2 : Memref sig .tc .vmem S400x4096 .f32) (harg2 : arg2.IsWhole) (arg3 : Memref sig .tc .vmem S400x4096 .f32) (harg3 : arg3.IsWhole) (arg4 : Memref sig .tc .vmem S12288x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S400x128 .f32) (harg9 : arg9.IsWhole) (arg10 : Memref sig .tc .vmem S400x128 .f32) (harg10 : arg10.IsWhole) (arg11 : Memref sig .tc .vmem S400x128 .f32) (harg11 : arg11.IsWhole) (h1 : ¬condReset i) (h2 : condMasked i) (h3 : ¬condPlain i) (h4 : condEpi i) (x0 x1 : Vec F S400x4096 .f32) (xf : Vec F S12288x128 .f32) (xwn : Vec F S128x128 .f32) (xbn : Vec F S1x128 .f32) (xwe : Vec F S128x128 .f32) (xbe : Vec F S1x128 .f32) (xn xe : Vec F S400x128 .f32) (y : S400x128.Idx) :
    ∃ pc ∈ (runEpi c i arg2 harg2 arg3 harg3 arg4 harg4 arg5 harg5 arg6 harg6 arg7 harg7 arg8 harg8 arg9 harg9 arg10 harg10 arg11 harg11 h1 h2 h3 h4 x0 x1 xf xwn xbn xwe xbe xn xe).2.2.1, y ∈ pc.1.set :=
  View.cover_of_tiledL (runEpi c i arg2 harg2 arg3 harg3 arg4 harg4 arg5 harg5 arg6 harg6 arg7 harg7 arg8 harg8 arg9 harg9 arg10 harg10 arg11 harg11 h1 h2 h3 h4 x0 x1 xf xwn xbn xwe xbe xn xe).2.2.1 S400x128.size (by sl_kernel_rfl) y

/-! ## What they leave -/

theorem canon_reset_n (c : Dev nD) (i : grid0.Coords) (arg2 : Memref sig .tc .vmem S400x4096 .f32) (harg2 : arg2.IsWhole) (arg3 : Memref sig .tc .vmem S400x4096 .f32) (harg3 : arg3.IsWhole) (arg4 : Memref sig .tc .vmem S12288x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S400x128 .f32) (harg9 : arg9.IsWhole) (arg10 : Memref sig .tc .vmem S400x128 .f32) (harg10 : arg10.IsWhole) (arg11 : Memref sig .tc .vmem S400x128 .f32) (harg11 : arg11.IsWhole) (h1 : condReset i) (h2 : ¬condMasked i) (h3 : condPlain i) (h4 : ¬condEpi i) (x0 x1 : Vec F S400x4096 .f32) (xf : Vec F S12288x128 .f32) :
    View.canon (runReset c i arg2 harg2 arg3 harg3 arg4 harg4 arg5 harg5 arg6 harg6 arg7 harg7 arg8 harg8 arg9 harg9 arg10 harg10 arg11 harg11 h1 h2 h3 h4 x0 x1 xf).1 = k0_pay7 (slab i xf) x0 k0_pay1 := by
  unfold runReset; dsimp only; sl_unfold_words
  rw [View.canon_cons_unit_zero (S := S400x128) hz2]
  simp only [View.readAt_eq_ld, Memref.IsWhole.read_unread, View.ld_unit_zero (S := S400x4096) hz2, View.ld_unit_zero (S := S400x128) hz2, View.ld_unit_zero (S := S128x128) hz2, View.ld_unit_zero (S := S1x128) hz2, View.readCov_unit_zero (S := S400x128) _ hz2]
  try rfl

theorem canon_reset_e (c : Dev nD) (i : grid0.Coords) (arg2 : Memref sig .tc .vmem S400x4096 .f32) (harg2 : arg2.IsWhole) (arg3 : Memref sig .tc .vmem S400x4096 .f32) (harg3 : arg3.IsWhole) (arg4 : Memref sig .tc .vmem S12288x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S400x128 .f32) (harg9 : arg9.IsWhole) (arg10 : Memref sig .tc .vmem S400x128 .f32) (harg10 : arg10.IsWhole) (arg11 : Memref sig .tc .vmem S400x128 .f32) (harg11 : arg11.IsWhole) (h1 : condReset i) (h2 : ¬condMasked i) (h3 : condPlain i) (h4 : ¬condEpi i) (x0 x1 : Vec F S400x4096 .f32) (xf : Vec F S12288x128 .f32) :
    View.canon (runReset c i arg2 harg2 arg3 harg3 arg4 harg4 arg5 harg5 arg6 harg6 arg7 harg7 arg8 harg8 arg9 harg9 arg10 harg10 arg11 harg11 h1 h2 h3 h4 x0 x1 xf).2.1 = k0_pay8 (slab i xf) x1 k0_pay2 := by
  unfold runReset; dsimp only; sl_unfold_words
  rw [View.canon_cons_unit_zero (S := S400x128) hz2]
  simp only [View.readAt_eq_ld, Memref.IsWhole.read_unread, View.ld_unit_zero (S := S400x4096) hz2, View.ld_unit_zero (S := S400x128) hz2, View.ld_unit_zero (S := S128x128) hz2, View.ld_unit_zero (S := S1x128) hz2, View.readCov_unit_zero (S := S400x128) _ hz2]
  try rfl

theorem canon_plain_n (c : Dev nD) (i : grid0.Coords) (arg2 : Memref sig .tc .vmem S400x4096 .f32) (harg2 : arg2.IsWhole) (arg3 : Memref sig .tc .vmem S400x4096 .f32) (harg3 : arg3.IsWhole) (arg4 : Memref sig .tc .vmem S12288x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S400x128 .f32) (harg9 : arg9.IsWhole) (arg10 : Memref sig .tc .vmem S400x128 .f32) (harg10 : arg10.IsWhole) (arg11 : Memref sig .tc .vmem S400x128 .f32) (harg11 : arg11.IsWhole) (h1 : ¬condReset i) (h2 : ¬condMasked i) (h3 : condPlain i) (h4 : ¬condEpi i) (x0 x1 : Vec F S400x4096 .f32) (xf : Vec F S12288x128 .f32) (xn xe : Vec F S400x128 .f32) :
    View.canon (runPlain c i arg2 harg2 arg3 harg3 arg4 harg4 arg5 harg5 arg6 harg6 arg7 harg7 arg8 harg8 arg9 harg9 arg10 harg10 arg11 harg11 h1 h2 h3 h4 x0 x1 xf xn xe).1 = k0_pay7 (slab i xf) x0 xn := by
  unfold runPlain; dsimp only; sl_unfold_words
  rw [View.canon_unit_zero (S := S400x128) hz2]
  simp only [View.readAt_eq_ld, Memref.IsWhole.read_unread, View.ld_unit_zero (S := S400x4096) hz2, View.ld_unit_zero (S := S400x128) hz2, View.ld_unit_zero (S := S128x128) hz2, View.ld_unit_zero (S := S1x128) hz2, View.readCov_unit_zero (S := S400x128) _ hz2]
  try rfl

theorem canon_plain_e (c : Dev nD) (i : grid0.Coords) (arg2 : Memref sig .tc .vmem S400x4096 .f32) (harg2 : arg2.IsWhole) (arg3 : Memref sig .tc .vmem S400x4096 .f32) (harg3 : arg3.IsWhole) (arg4 : Memref sig .tc .vmem S12288x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S400x128 .f32) (harg9 : arg9.IsWhole) (arg10 : Memref sig .tc .vmem S400x128 .f32) (harg10 : arg10.IsWhole) (arg11 : Memref sig .tc .vmem S400x128 .f32) (harg11 : arg11.IsWhole) (h1 : ¬condReset i) (h2 : ¬condMasked i) (h3 : condPlain i) (h4 : ¬condEpi i) (x0 x1 : Vec F S400x4096 .f32) (xf : Vec F S12288x128 .f32) (xn xe : Vec F S400x128 .f32) :
    View.canon (runPlain c i arg2 harg2 arg3 harg3 arg4 harg4 arg5 harg5 arg6 harg6 arg7 harg7 arg8 harg8 arg9 harg9 arg10 harg10 arg11 harg11 h1 h2 h3 h4 x0 x1 xf xn xe).2.1 = k0_pay8 (slab i xf) x1 xe := by
  unfold runPlain; dsimp only; sl_unfold_words
  rw [View.canon_unit_zero (S := S400x128) hz2]
  simp only [View.readAt_eq_ld, Memref.IsWhole.read_unread, View.ld_unit_zero (S := S400x4096) hz2, View.ld_unit_zero (S := S400x128) hz2, View.ld_unit_zero (S := S128x128) hz2, View.ld_unit_zero (S := S1x128) hz2, View.readCov_unit_zero (S := S400x128) _ hz2]
  try rfl

theorem canon_epi_n (c : Dev nD) (i : grid0.Coords) (arg2 : Memref sig .tc .vmem S400x4096 .f32) (harg2 : arg2.IsWhole) (arg3 : Memref sig .tc .vmem S400x4096 .f32) (harg3 : arg3.IsWhole) (arg4 : Memref sig .tc .vmem S12288x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S400x128 .f32) (harg9 : arg9.IsWhole) (arg10 : Memref sig .tc .vmem S400x128 .f32) (harg10 : arg10.IsWhole) (arg11 : Memref sig .tc .vmem S400x128 .f32) (harg11 : arg11.IsWhole) (h1 : ¬condReset i) (h2 : condMasked i) (h3 : ¬condPlain i) (h4 : condEpi i) (x0 x1 : Vec F S400x4096 .f32) (xf : Vec F S12288x128 .f32) (xwn : Vec F S128x128 .f32) (xbn : Vec F S1x128 .f32) (xwe : Vec F S128x128 .f32) (xbe : Vec F S1x128 .f32) (xn xe : Vec F S400x128 .f32) :
    View.canon (runEpi c i arg2 harg2 arg3 harg3 arg4 harg4 arg5 harg5 arg6 harg6 arg7 harg7 arg8 harg8 arg9 harg9 arg10 harg10 arg11 harg11 h1 h2 h3 h4 x0 x1 xf xwn xbn xwe xbe xn xe).2.1 = k0_pay5 i (slab i xf) x0 xn := by
  unfold runEpi; dsimp only; sl_unfold_words
  rw [View.canon_unit_zero (S := S400x128) hz2]
  simp only [View.readAt_eq_ld, Memref.IsWhole.read_unread, View.ld_unit_zero (S := S400x4096) hz2, View.ld_unit_zero (S := S400x128) hz2, View.ld_unit_zero (S := S128x128) hz2, View.ld_unit_zero (S := S1x128) hz2, View.readCov_unit_zero (S := S400x128) _ hz2]
  try rfl

theorem canon_epi_e (c : Dev nD) (i : grid0.Coords) (arg2 : Memref sig .tc .vmem S400x4096 .f32) (harg2 : arg2.IsWhole) (arg3 : Memref sig .tc .vmem S400x4096 .f32) (harg3 : arg3.IsWhole) (arg4 : Memref sig .tc .vmem S12288x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S400x128 .f32) (harg9 : arg9.IsWhole) (arg10 : Memref sig .tc .vmem S400x128 .f32) (harg10 : arg10.IsWhole) (arg11 : Memref sig .tc .vmem S400x128 .f32) (harg11 : arg11.IsWhole) (h1 : ¬condReset i) (h2 : condMasked i) (h3 : ¬condPlain i) (h4 : condEpi i) (x0 x1 : Vec F S400x4096 .f32) (xf : Vec F S12288x128 .f32) (xwn : Vec F S128x128 .f32) (xbn : Vec F S1x128 .f32) (xwe : Vec F S128x128 .f32) (xbe : Vec F S1x128 .f32) (xn xe : Vec F S400x128 .f32) :
    View.canon (runEpi c i arg2 harg2 arg3 harg3 arg4 harg4 arg5 harg5 arg6 harg6 arg7 harg7 arg8 harg8 arg9 harg9 arg10 harg10 arg11 harg11 h1 h2 h3 h4 x0 x1 xf xwn xbn xwe xbe xn xe).2.2.1 = k0_pay6 i (slab i xf) x1 xe := by
  unfold runEpi; dsimp only; sl_unfold_words
  rw [View.canon_unit_zero (S := S400x128) hz2]
  simp only [View.readAt_eq_ld, Memref.IsWhole.read_unread, View.ld_unit_zero (S := S400x4096) hz2, View.ld_unit_zero (S := S400x128) hz2, View.ld_unit_zero (S := S128x128) hz2, View.ld_unit_zero (S := S1x128) hz2, View.readCov_unit_zero (S := S400x128) _ hz2]
  try rfl

theorem canon_epi_o (c : Dev nD) (i : grid0.Coords) (arg2 : Memref sig .tc .vmem S400x4096 .f32) (harg2 : arg2.IsWhole) (arg3 : Memref sig .tc .vmem S400x4096 .f32) (harg3 : arg3.IsWhole) (arg4 : Memref sig .tc .vmem S12288x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S400x128 .f32) (harg9 : arg9.IsWhole) (arg10 : Memref sig .tc .vmem S400x128 .f32) (harg10 : arg10.IsWhole) (arg11 : Memref sig .tc .vmem S400x128 .f32) (harg11 : arg11.IsWhole) (h1 : ¬condReset i) (h2 : condMasked i) (h3 : ¬condPlain i) (h4 : condEpi i) (x0 x1 : Vec F S400x4096 .f32) (xf : Vec F S12288x128 .f32) (xwn : Vec F S128x128 .f32) (xbn : Vec F S1x128 .f32) (xwe : Vec F S128x128 .f32) (xbe : Vec F S1x128 .f32) (xn xe : Vec F S400x128 .f32) :
    View.canon (runEpi c i arg2 harg2 arg3 harg3 arg4 harg4 arg5 harg5 arg6 harg6 arg7 harg7 arg8 harg8 arg9 harg9 arg10 harg10 arg11 harg11 h1 h2 h3 h4 x0 x1 xf xwn xbn xwe xbe xn xe).1 = k0_pay9 (k0_pay5 i (slab i xf) x0 xn) xwn xbn (k0_pay6 i (slab i xf) x1 xe) xwe xbe := by
  unfold runEpi; dsimp only; sl_unfold_words
  rw [View.canon_unit_zero (S := S400x128) hz2]
  simp only [View.readAt_eq_ld, Memref.IsWhole.read_unread, View.ld_unit_zero (S := S400x4096) hz2, View.ld_unit_zero (S := S400x128) hz2, View.ld_unit_zero (S := S128x128) hz2, View.ld_unit_zero (S := S1x128) hz2, View.readCov_unit_zero (S := S400x128) _ hz2]
  try rfl

end Cert.KernelIdeal.Hand

end
-- ==== Proof.IdealSide.Mask.lean ====
/-
  The column mask of the last contraction tile. At a point with k = 2 the mask is set at column q of the tile
  exactly when 8192 + q < 10000, that is on the part of the staging buffer the cut fetch fills; so a tile
  selected through the mask against any constant does not depend on what the rest of the buffer holds.
-/
import proofs.«148361_g77704548319642_cont_9to1_m_740_8_alg».proof.Proof.IdealSide.Shared
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.KernelIdeal Cert.KernelIdeal.Gen Idealize.ShloMosaic.ValueIdx

/-- The mask at row p and column q of the tile: set exactly when the column 4096 k + q is inside the array. -/
theorem mask_apply (i : grid0.Coords) (p : Fin 400) (q : Fin 4096) :
    k0_pay4 i (ix2 p q) = 1#1 ↔ 4096 * (i 1).val + q.val < 10000 := by
  have hk : (i 1).val < 3 := (i 1).isLt
  have hq : q.val < 4096 := q.isLt
  show IntOp.cmpi .slt (IntOp.addi (Scalar.muli (BitVec.ofNat 32 (i 1).val) 4096#32)
    (iota .tc S400x4096 32 [1] iota_S400x4096_d1_w32 (ix2 p q))) 10000#32 = 1#1 ↔ _
  have hiota : iota .tc S400x4096 32 [1] iota_S400x4096_d1_w32 (ix2 p q) = BitVec.ofNat 32 q.val := by
    simp [iota]
  rw [hiota]
  -- the column number as a word: below 2 ^ 31, so the signed comparison is the comparison of the numbers
  have hx : (IntOp.addi (Scalar.muli (BitVec.ofNat 32 (i 1).val) 4096#32) (BitVec.ofNat 32 q.val)).toNat
      = 4096 * (i 1).val + q.val := by
    simp only [IntOp.addi, Scalar.muli, IntOp.muli, BitVec.toNat_add, BitVec.toNat_mul, BitVec.toNat_ofNat]
    omega
  generalize IntOp.addi (Scalar.muli (BitVec.ofNat 32 (i 1).val) 4096#32) (BitVec.ofNat 32 q.val) = x at hx
  have mx : x.msb = false := BitVec.msb_eq_false_iff_two_mul_lt.mpr (by omega)
  have mc : (10000#32 : BitVec 32).msb = false := by decide
  have hc : (10000#32 : BitVec 32).toNat = 10000 := by decide
  unfold IntOp.cmpi
  simp only [BitVec.slt, BitVec.toInt_eq_msb_cond, mx, mc, hx, hc]
  rw [(by decide : ∀ b : Bool, (BitVec.ofBool b = 1#1 ↔ b = true))]
  simp only [decide_eq_true_eq, Bool.false_eq_true, ↓reduceIte]
  omega

/-- The node adjacency's tile selected through the mask does not depend on the filler. -/
theorem masked_fill_indep0 (t : Fin cfg0.N) (ht : t.val % 3 = 2) (d d' : S400x4096.Idx → Elt F .f32)
    (g : (win0_0.xblock (grid0.coords t)).Idx → Elt F .f32) (z : Vec F S400x4096 .f32) :
    select (k0_pay4 (grid0.coords t)) (win0_0.fill (grid0.coords t) d g) z
      = select (k0_pay4 (grid0.coords t)) (win0_0.fill (grid0.coords t) d' g) z := by
  funext j
  obtain ⟨p, q, rfl⟩ : ∃ (p : Fin 400) (q : Fin 4096), j = ix2 p q := ⟨j 0, j 1, eq_ix2 j⟩
  show Scalar.select (k0_pay4 (grid0.coords t) (ix2 p q)) (win0_0.fill (grid0.coords t) d g (ix2 p q)) (z (ix2 p q))
    = Scalar.select (k0_pay4 (grid0.coords t) (ix2 p q)) (win0_0.fill (grid0.coords t) d' g (ix2 p q)) (z (ix2 p q))
  by_cases hm : win0_0.moved (grid0.coords t) (ix2 p q) = true
  · -- inside the fetched part both buffers hold the fetched element
    have e : win0_0.fill (grid0.coords t) d g (ix2 p q) = win0_0.fill (grid0.coords t) d' g (ix2 p q) := by
      unfold Window.fill; rw [dif_pos hm, dif_pos hm]
    rw [e]
  · -- outside it the column is at or past 1808, so 8192 + q is at or past 10000 and the mask is clear
    have hx := (by decide +kernel : ∀ t : Fin grid0.N, t.val % 3 = 2 →
      win0_0.xsize (grid0.coords t) 0 = 400 ∧ win0_0.xsize (grid0.coords t) 1 = 1808 ∧ (grid0.coords t 1).val = 2) t ht
    have hnot : ¬ k0_pay4 (grid0.coords t) (ix2 p q) = 1#1 := by
      rw [mask_apply]
      intro h
      apply hm
      rw [Window.moved_iff]
      intro a
      match a with
      | ⟨0, _⟩ => show p.val < win0_0.xsize (grid0.coords t) 0; rw [hx.1]; exact p.isLt
      | ⟨1, _⟩ => show q.val < win0_0.xsize (grid0.coords t) 1; rw [hx.2.1]; omega
    exact (if_neg hnot).trans (if_neg hnot).symm

/-- The edge adjacency's tile likewise. -/
theorem masked_fill_indep1 (t : Fin cfg0.N) (ht : t.val % 3 = 2) (d d' : S400x4096.Idx → Elt F .f32)
    (g : (win0_1.xblock (grid0.coords t)).Idx → Elt F .f32) (z : Vec F S400x4096 .f32) :
    select (k0_pay4 (grid0.coords t)) (win0_1.fill (grid0.coords t) d g) z
      = select (k0_pay4 (grid0.coords t)) (win0_1.fill (grid0.coords t) d' g) z := by
  funext j
  obtain ⟨p, q, rfl⟩ : ∃ (p : Fin 400) (q : Fin 4096), j = ix2 p q := ⟨j 0, j 1, eq_ix2 j⟩
  show Scalar.select (k0_pay4 (grid0.coords t) (ix2 p q)) (win0_1.fill (grid0.coords t) d g (ix2 p q)) (z (ix2 p q))
    = Scalar.select (k0_pay4 (grid0.coords t) (ix2 p q)) (win0_1.fill (grid0.coords t) d' g (ix2 p q)) (z (ix2 p q))
  by_cases hm : win0_1.moved (grid0.coords t) (ix2 p q) = true
  · -- inside the fetched part both buffers hold the fetched element
    have e : win0_1.fill (grid0.coords t) d g (ix2 p q) = win0_1.fill (grid0.coords t) d' g (ix2 p q) := by
      unfold Window.fill; rw [dif_pos hm, dif_pos hm]
    rw [e]
  · -- outside it the column is at or past 1808, so 8192 + q is at or past 10000 and the mask is clear
    have hx := (by decide +kernel : ∀ t : Fin grid0.N, t.val % 3 = 2 →
      win0_1.xsize (grid0.coords t) 0 = 400 ∧ win0_1.xsize (grid0.coords t) 1 = 1808 ∧ (grid0.coords t 1).val = 2) t ht
    have hnot : ¬ k0_pay4 (grid0.coords t) (ix2 p q) = 1#1 := by
      rw [mask_apply]
      intro h
      apply hm
      rw [Window.moved_iff]
      intro a
      match a with
      | ⟨0, _⟩ => show p.val < win0_1.xsize (grid0.coords t) 0; rw [hx.1]; exact p.isLt
      | ⟨1, _⟩ => show q.val < win0_1.xsize (grid0.coords t) 1; rw [hx.2.1]; omega
    exact (if_neg hnot).trans (if_neg hnot).symm

end Cert.KernelIdeal.Hand

end
-- ==== Proof.IdealSide.Body.lean ====
/-
  The body obligation of the pipeline and the run. At every point the body is handed the adjacency tiles just
  fetched (filled with anything past the array's end at k = 2), the resident operands at their blocks, the
  accumulators at what the point before left (at anything before k = 0 resets them) and the output buffer at
  anything; it hands back the inputs as they were, the accumulators at the recursion's contents for this point,
  and the output buffer untouched at k < 2 and holding the epilogue at k = 2. At k = 2 the accumulated product
  is taken through the column mask, so it is the same whatever fills the tile past the array's end.
-/
import proofs.«148361_g77704548319642_cont_9to1_m_740_8_alg».proof.Proof.IdealSide.Pieces
import proofs.«148361_g77704548319642_cont_9to1_m_740_8_alg».proof.Proof.IdealSide.Mask

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.KernelIdeal Cert.KernelIdeal.Gen

variable (m : (ℓ : Loc nD τ sig) → Buf (Elt F) ℓ) (ρ : Dev nD → PrngReg)

/-! ## What the body finds in each window's buffer -/

theorem before_0 (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq]; try rfl
theorem before_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]; try rfl

theorem noclip_0 : ∀ t : Fin cfg0.N, t.val % 3 ≠ 2 → ∀ a, (cfg0.win 0).clip (grid0.coords t) a = none := by decide +kernel
theorem noclip_1 : ∀ t : Fin cfg0.N, t.val % 3 ≠ 2 → ∀ a, (cfg0.win 1).clip (grid0.coords t) a = none := by decide +kernel

/-- Away from the last contraction tile the fetch fills the whole buffer: the tile, whatever the buffer held. -/
theorem before_0_whole (c : Dev nD) (t : Fin cfg0.N) (ht : t.val % 3 ≠ 2) (d) : (dats m 0 c).before 0 t d = tileN m c t := by
  unfold Dat.before; rw [if_pos (fetch0_0 t), (dats m 0 c).fetched_of_clip_none 0 t (noclip_0 t ht) d zfill]
  unfold Dat.fetched Dat.blockOf tileN iblk; rw [A_eq]; try rfl
theorem before_1_whole (c : Dev nD) (t : Fin cfg0.N) (ht : t.val % 3 ≠ 2) (d) : (dats m 0 c).before 1 t d = tileE m c t := by
  unfold Dat.before; rw [if_pos (fetch0_1 t), (dats m 0 c).fetched_of_clip_none 1 t (noclip_1 t ht) d zfill]
  unfold Dat.fetched Dat.blockOf tileE iblk; rw [A_eq]; try rfl

theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-! ## What the body hands back, window by window -/

theorem leaves_0 (c : Dev nD) (t : Fin cfg0.N) :
    (dats m 0 c).leaves 0 t = iprop(∃ d, owns (c : Thread nD τ) (ms0 t) fullShare (win0_0.fill (grid0.coords t) d (iblk m c 0 t))) := by
  unfold Dat.leaves; rw [live_in 0 (by decide) t]; dsimp only
  rw [after_0]; unfold tileN; rw [Window.cut_fill]; rfl
theorem leaves_1 (c : Dev nD) (t : Fin cfg0.N) :
    (dats m 0 c).leaves 1 t = iprop(∃ d, owns (c : Thread nD τ) (ms1 t) fullShare (win0_1.fill (grid0.coords t) d (iblk m c 1 t))) := by
  unfold Dat.leaves; rw [live_in 1 (by decide) t]; dsimp only
  rw [after_1]; unfold tileE; rw [Window.cut_fill]; rfl
theorem leaves_2 (c : Dev nD) (t : Fin cfg0.N) : (dats m 0 c).leaves 2 t = owns (c : Thread nD τ) (ms2 t) fullShare (iblk m c 2 t) := by
  unfold Dat.leaves; rw [live_in 2 (by decide) t, after_2]
theorem leaves_3 (c : Dev nD) (t : Fin cfg0.N) : (dats m 0 c).leaves 3 t = owns (c : Thread nD τ) (ms3 t) fullShare (iblk m c 3 t) := by
  unfold Dat.leaves; rw [live_in 3 (by decide) t, after_3]
theorem leaves_4 (c : Dev nD) (t : Fin cfg0.N) : (dats m 0 c).leaves 4 t = owns (c : Thread nD τ) (ms4 t) fullShare (iblk m c 4 t) := by
  unfold Dat.leaves; rw [live_in 4 (by decide) t, after_4]
theorem leaves_5 (c : Dev nD) (t : Fin cfg0.N) : (dats m 0 c).leaves 5 t = owns (c : Thread nD τ) (ms5 t) fullShare (iblk m c 5 t) := by
  unfold Dat.leaves; rw [live_in 5 (by decide) t, after_5]
theorem leaves_6 (c : Dev nD) (t : Fin cfg0.N) : (dats m 0 c).leaves 6 t = owns (c : Thread nD τ) (ms6 t) fullShare (iblk m c 6 t) := by
  unfold Dat.leaves; rw [live_in 6 (by decide) t, after_6]
theorem leaves_7_idle (c : Dev nD) (t : Fin cfg0.N) (ht : t.val % 3 ≠ 2) :
    (dats m 0 c).leaves 7 t = iprop(∃ d, owns (c : Thread nD τ) (ms7 t) fullShare ((dats m 0 c).before 7 t d)) :=
  (dats m 0 c).leaves_idle 7 t (idle_out t ht) (noFlush_out t ht)
theorem leaves_7_live (c : Dev nD) (t : Fin cfg0.N) (ht : t.val % 3 = 2) :
    (dats m 0 c).leaves 7 t = owns (c : Thread nD τ) (ms7 t) fullShare ((outsAt m c t.val t.isLt).1) := by
  unfold Dat.leaves; rw [live_out t ht, after_7]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t
    ∗ (dats m 0 c).leaves 7 t)

theorem caseReset (t : Fin cfg0.N) (h0 : t.val % 3 = 0) :
    condReset (grid0.coords t) ∧ ¬condMasked (grid0.coords t) ∧ condPlain (grid0.coords t) ∧ ¬condEpi (grid0.coords t) :=
  ⟨(hcondReset t).mpr h0, fun h => by have := (hcondMasked t).mp h; omega, (hcondPlain t).mpr (by omega), fun h => by have := (hcondEpi t).mp h; omega⟩
theorem casePlain (t : Fin cfg0.N) (h0 : ¬t.val % 3 = 0) (h2 : ¬t.val % 3 = 2) :
    ¬condReset (grid0.coords t) ∧ ¬condMasked (grid0.coords t) ∧ condPlain (grid0.coords t) ∧ ¬condEpi (grid0.coords t) :=
  ⟨fun h => h0 ((hcondReset t).mp h), fun h => h2 ((hcondMasked t).mp h), (hcondPlain t).mpr h2, fun h => h2 ((hcondEpi t).mp h)⟩
theorem caseEpi (t : Fin cfg0.N) (h2 : t.val % 3 = 2) :
    ¬condReset (grid0.coords t) ∧ condMasked (grid0.coords t) ∧ ¬condPlain (grid0.coords t) ∧ condEpi (grid0.coords t) :=
  ⟨fun h => by have := (hcondReset t).mp h; omega, (hcondMasked t).mpr h2, fun h => ((hcondPlain t).mp h) h2, (hcondEpi t).mpr h2⟩

set_option maxHeartbeats 4800000 in
/-- k = 0: the accumulators arrive at anything (before the first point) or at what the row tile before left,
    and leave at the product over zero. -/
theorem sound_reset (c : Dev nD) (t : Fin cfg0.N) (h0 : t.val % 3 = 0) :
    bodyPre m c t ⊢ wp frame (wpE (defs₀ (F := F)) Variants.none c none) Set.univ (bodyAt0 t) (fun _ => bodyPost m c t) := by
  have hne2 : t.val % 3 ≠ 2 := by omega
  obtain ⟨k1, k2, k3, k4⟩ := caseReset t h0
  unfold bodyPre bodyPost bodyAt0
  simp only [before_0_whole m c t hne2, before_1_whole m c t hne2, before_2, before_3, before_4, before_5, before_6]
  rw [leaves_0, leaves_1, leaves_2, leaves_3, leaves_4, leaves_5, leaves_6, leaves_7_idle m c t hne2]
  rw [show (dats m 0 c).owesAt () t.succ = (dats m 0 c).owesAt () t.castSucc from rfl]
  rw [show (dats m 0 c).Φ t.succ = PhiS m c (t.val + 1) t.isLt from rfl, PhiS_succ, outsAt_reset m c t h0]
  have hrun := (runReset c (grid0.coords t) (ms0 t) (hs0 t) (ms1 t) (hs1 t) (ms2 t) (hs2 t) (ms3 t) (hs3 t) (ms4 t) (hs4 t) (ms5 t) (hs5 t) (ms6 t) (hs6 t) (ms7 t) (hs7 t) accN (Memref.isWhole_whole _) accE (Memref.isWhole_whole _) k1 k2 k3 k4 (tileN m c t) (tileE m c t) (featsBlk m c t)).2.2
  by_cases hz : t.val = 0
  · rw [PhiS_castSucc m c t, PhiS_zero m c _ _ hz, PhiA_eq]
    iintro ⟨⟨⟨HN, HE⟩, Hg⟩, Ho, ⟨%d0, H0⟩, ⟨%d1, H1⟩, ⟨%d2, H2⟩, ⟨%d3, H3⟩, ⟨%d4, H4⟩, ⟨%d5, H5⟩, ⟨%d6, H6⟩, H7⟩
    iapply (hrun Set.univ _)
    isplitl [H0]; · iexact H0
    isplitl [H1]; · iexact H1
    isplitl [H2]; · iexact H2
    isplitl [HN]; · iexact HN
    isplitl [HE]; · iexact HE
    iintro ⟨H0, H1, H2, ⟨%en, HN⟩, ⟨%ee, HE⟩⟩
    isplitl [HN HE Hg]
    · isplitl [HN HE]
      · isplitl [HN]
        · unfold owns; iexists _; isplitr
          swap; · iexact HN
          ipureintro; exact (View.read_writes_eq_canon _ _ _ (cov_reset_n _ _ _ _ _ _ _ _ _ _ _ _ _ _ _ _ _ _ _ _ _ _ k1 k2 k3 k4 _ _ _)).trans (canon_reset_n _ _ _ _ _ _ _ _ _ _ _ _ _ _ _ _ _ _ _ _ _ _ k1 k2 k3 k4 _ _ _)
        · unfold owns; iexists _; isplitr
          swap; · iexact HE
          ipureintro; exact (View.read_writes_eq_canon _ _ _ (cov_reset_e _ _ _ _ _ _ _ _ _ _ _ _ _ _ _ _ _ _ _ _ _ _ k1 k2 k3 k4 _ _ _)).trans (canon_reset_e _ _ _ _ _ _ _ _ _ _ _ _ _ _ _ _ _ _ _ _ _ _ k1 k2 k3 k4 _ _ _)
      iexact Hg
    isplitl [Ho]; · iexact Ho
    isplitl [H0]; · iexists _; iexact H0
    isplitl [H1]; · iexists _; iexact H1
    isplitl [H2]; · iexact H2
    isplitl [H3]; · iexact H3
    isplitl [H4]; · iexact H4
    isplitl [H5]; · iexact H5
    isplitl [H6]; · iexact H6
    iexact H7
  · rw [PhiS_castSucc m c t, PhiS_pos m c _ _ hz]
    iintro ⟨⟨⟨HN, HE⟩, Hg⟩, Ho, ⟨%d0, H0⟩, ⟨%d1, H1⟩, ⟨%d2, H2⟩, ⟨%d3, H3⟩, ⟨%d4, H4⟩, ⟨%d5, H5⟩, ⟨%d6, H6⟩, H7⟩
    iapply (hrun Set.univ _)
    isplitl [H0]; · iexact H0
    isplitl [H1]; · iexact H1
    isplitl [H2]; · iexact H2
    isplitl [HN]; · iexists _; iexact HN
    isplitl [HE]; · iexists _; iexact HE
    iintro ⟨H0, H1, H2, ⟨%en, HN⟩, ⟨%ee, HE⟩⟩
    isplitl [HN HE Hg]
    · isplitl [HN HE]
      · isplitl [HN]
        · unfold owns; iexists _; isplitr
          swap; · iexact HN
          ipureintro; exact (View.read_writes_eq_canon _ _ _ (cov_reset_n _ _ _ _ _ _ _ _ _ _ _ _ _ _ _ _ _ _ _ _ _ _ k1 k2 k3 k4 _ _ _)).trans (canon_reset_n _ _ _ _ _ _ _ _ _ _ _ _ _ _ _ _ _ _ _ _ _ _ k1 k2 k3 k4 _ _ _)
        · unfold owns; iexists _; isplitr
          swap; · iexact HE
          ipureintro; exact (View.read_writes_eq_canon _ _ _ (cov_reset_e _ _ _ _ _ _ _ _ _ _ _ _ _ _ _ _ _ _ _ _ _ _ k1 k2 k3 k4 _ _ _)).trans (canon_reset_e _ _ _ _ _ _ _ _ _ _ _ _ _ _ _ _ _ _ _ _ _ _ k1 k2 k3 k4 _ _ _)
      iexact Hg
    isplitl [Ho]; · iexact Ho
    isplitl [H0]; · iexists _; iexact H0
    isplitl [H1]; · iexists _; iexact H1
    isplitl [H2]; · iexact H2
    isplitl [H3]; · iexact H3
    isplitl [H4]; · iexact H4
    isplitl [H5]; · iexact H5
    isplitl [H6]; · iexact H6
    iexact H7

set_option maxHeartbeats 4800000 in
/-- k = 1: the accumulators arrive at what the point before left and leave at the product added to it. -/
theorem sound_plain (c : Dev nD) (t : Fin cfg0.N) (h0 : ¬t.val % 3 = 0) (h2 : ¬t.val % 3 = 2) :
    bodyPre m c t ⊢ wp frame (wpE (defs₀ (F := F)) Variants.none c none) Set.univ (bodyAt0 t) (fun _ => bodyPost m c t) := by
  obtain ⟨k1, k2, k3, k4⟩ := casePlain t h0 h2
  have hz : t.val ≠ 0 := fun h => h0 (by rw [h])
  unfold bodyPre bodyPost bodyAt0
  simp only [before_0_whole m c t h2, before_1_whole m c t h2, before_2, before_3, before_4, before_5, before_6]
  rw [leaves_0, leaves_1, leaves_2, leaves_3, leaves_4, leaves_5, leaves_6, leaves_7_idle m c t h2]
  rw [show (dats m 0 c).owesAt () t.succ = (dats m 0 c).owesAt () t.castSucc from rfl]
  rw [show (dats m 0 c).Φ t.succ = PhiS m c (t.val + 1) t.isLt from rfl, PhiS_succ, outsAt_plain m c t h0 h2]
  rw [PhiS_castSucc m c t, PhiS_pos m c _ _ hz]
  have hrun := (runPlain c (grid0.coords t) (ms0 t) (hs0 t) (ms1 t) (hs1 t) (ms2 t) (hs2 t) (ms3 t) (hs3 t) (ms4 t) (hs4 t) (ms5 t) (hs5 t) (ms6 t) (hs6 t) (ms7 t) (hs7 t) accN (Memref.isWhole_whole _) accE (Memref.isWhole_whole _) k1 k2 k3 k4 (tileN m c t) (tileE m c t) (featsBlk m c t)
    ((outsAt m c (t.val - 1) (Nat.lt_of_le_of_lt (Nat.sub_le _ _) t.isLt)).2.1) ((outsAt m c (t.val - 1) (Nat.lt_of_le_of_lt (Nat.sub_le _ _) t.isLt)).2.2)).2.2
  iintro ⟨⟨⟨HN, HE⟩, Hg⟩, Ho, ⟨%d0, H0⟩, ⟨%d1, H1⟩, ⟨%d2, H2⟩, ⟨%d3, H3⟩, ⟨%d4, H4⟩, ⟨%d5, H5⟩, ⟨%d6, H6⟩, H7⟩
  iapply (hrun Set.univ _)
  isplitl [H0]; · iexact H0
  isplitl [H1]; · iexact H1
  isplitl [H2]; · iexact H2
  isplitl [HN]; · iexact HN
  isplitl [HE]; · iexact HE
  iintro ⟨H0, H1, H2, ⟨%en, HN⟩, ⟨%ee, HE⟩⟩
  isplitl [HN HE Hg]
  · isplitl [HN HE]
    · isplitl [HN]
      · unfold owns; iexists _; isplitr
        swap; · iexact HN
        ipureintro; exact (View.read_writes_eq_canon _ _ _ (cov_plain_n _ _ _ _ _ _ _ _ _ _ _ _ _ _ _ _ _ _ _ _ _ _ k1 k2 k3 k4 _ _ _ _ _)).trans (canon_plain_n _ _ _ _ _ _ _ _ _ _ _ _ _ _ _ _ _ _ _ _ _ _ k1 k2 k3 k4 _ _ _ _ _)
      · unfold owns; iexists _; isplitr
        swap; · iexact HE
        ipureintro; exact (View.read_writes_eq_canon _ _ _ (cov_plain_e _ _ _ _ _ _ _ _ _ _ _ _ _ _ _ _ _ _ _ _ _ _ k1 k2 k3 k4 _ _ _ _ _)).trans (canon_plain_e _ _ _ _ _ _ _ _ _ _ _ _ _ _ _ _ _ _ _ _ _ _ k1 k2 k3 k4 _ _ _ _ _)
    iexact Hg
  isplitl [Ho]; · iexact Ho
  isplitl [H0]; · iexists _; iexact H0
  isplitl [H1]; · iexists _; iexact H1
  isplitl [H2]; · iexact H2
  isplitl [H3]; · iexact H3
  isplitl [H4]; · iexact H4
  isplitl [H5]; · iexact H5
  isplitl [H6]; · iexact H6
  iexact H7

/-- The masked product does not depend on what fills the tile past the array's end. -/
theorem pay5_fill (t : Fin cfg0.N) (ht : t.val % 3 = 2) (d : S400x4096.Idx → Elt F .f32)
    (g : (win0_0.xblock (grid0.coords t)).Idx → Elt F .f32) (sl : Vec F S4096x128 .f32) (xn : Vec F S400x128 .f32) :
    k0_pay5 (grid0.coords t) sl (win0_0.fill (grid0.coords t) d g) xn = k0_pay5 (grid0.coords t) sl (win0_0.fill (grid0.coords t) zfill g) xn := by
  unfold k0_pay5; dsimp only
  rw [masked_fill_indep0 t ht d zfill g]
theorem pay6_fill (t : Fin cfg0.N) (ht : t.val % 3 = 2) (d : S400x4096.Idx → Elt F .f32)
    (g : (win0_1.xblock (grid0.coords t)).Idx → Elt F .f32) (sl : Vec F S4096x128 .f32) (xe : Vec F S400x128 .f32) :
    k0_pay6 (grid0.coords t) sl (win0_1.fill (grid0.coords t) d g) xe = k0_pay6 (grid0.coords t) sl (win0_1.fill (grid0.coords t) zfill g) xe := by
  unfold k0_pay6; dsimp only
  rw [masked_fill_indep1 t ht d zfill g]

set_option maxHeartbeats 4800000 in
/-- k = 2: the accumulators leave at the masked product added to what the point before left, and the output
    buffer at the epilogue of those. -/
theorem sound_epi (c : Dev nD) (t : Fin cfg0.N) (h2 : t.val % 3 = 2) :
    bodyPre m c t ⊢ wp frame (wpE (defs₀ (F := F)) Variants.none c none) Set.univ (bodyAt0 t) (fun _ => bodyPost m c t) := by
  obtain ⟨k1, k2, k3, k4⟩ := caseEpi t h2
  have hz : t.val ≠ 0 := fun h => by rw [h] at h2; exact absurd h2 (by decide)
  unfold bodyPre bodyPost bodyAt0
  simp only [before_0, before_1, before_2, before_3, before_4, before_5, before_6]
  rw [leaves_0, leaves_1, leaves_2, leaves_3, leaves_4, leaves_5, leaves_6, leaves_7_live m c t h2]
  rw [show (dats m 0 c).owesAt () t.succ = (dats m 0 c).owesAt () t.castSucc from rfl]
  rw [show (dats m 0 c).Φ t.succ = PhiS m c (t.val + 1) t.isLt from rfl, PhiS_succ, outsAt_epi m c t h2]
  rw [PhiS_castSucc m c t, PhiS_pos m c _ _ hz]
  unfold tileN tileE
  iintro ⟨⟨⟨HN, HE⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rw [← pay5_fill t h2 d0 (iblk m c 0 t), ← pay6_fill t h2 d1 (iblk m c 1 t)]
  iapply ((runEpi c (grid0.coords t) (ms0 t) (hs0 t) (ms1 t) (hs1 t) (ms2 t) (hs2 t) (ms3 t) (hs3 t) (ms4 t) (hs4 t) (ms5 t) (hs5 t) (ms6 t) (hs6 t) (ms7 t) (hs7 t) accN (Memref.isWhole_whole _) accE (Memref.isWhole_whole _) k1 k2 k3 k4 (win0_0.fill (grid0.coords t) d0 (iblk m c 0 t)) (win0_1.fill (grid0.coords t) d1 (iblk m c 1 t)) (featsBlk m c t)
    (wnBlk m c t) (bnBlk m c t) (weBlk m c t) (beBlk m c t)
    ((outsAt m c (t.val - 1) (Nat.lt_of_le_of_lt (Nat.sub_le _ _) t.isLt)).2.1) ((outsAt m c (t.val - 1) (Nat.lt_of_le_of_lt (Nat.sub_le _ _) t.isLt)).2.2)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HN]; · iexact HN
  isplitl [HE]; · iexact HE
  iintro ⟨H0, H1, H2, H3, H4, H5, H6, ⟨%eo, H7⟩, ⟨%en, HN⟩, ⟨%ee, HE⟩⟩
  isplitl [HN HE Hg]
  · isplitl [HN HE]
    · isplitl [HN]
      · unfold owns; iexists _; isplitr
        swap; · iexact HN
        ipureintro; exact (View.read_writes_eq_canon _ _ _ (cov_epi_n _ _ _ _ _ _ _ _ _ _ _ _ _ _ _ _ _ _ _ _ _ _ k1 k2 k3 k4 _ _ _ _ _ _ _ _ _)).trans (canon_epi_n _ _ _ _ _ _ _ _ _ _ _ _ _ _ _ _ _ _ _ _ _ _ k1 k2 k3 k4 _ _ _ _ _ _ _ _ _)
      · unfold owns; iexists _; isplitr
        swap; · iexact HE
        ipureintro; exact (View.read_writes_eq_canon _ _ _ (cov_epi_e _ _ _ _ _ _ _ _ _ _ _ _ _ _ _ _ _ _ _ _ _ _ k1 k2 k3 k4 _ _ _ _ _ _ _ _ _)).trans (canon_epi_e _ _ _ _ _ _ _ _ _ _ _ _ _ _ _ _ _ _ _ _ _ _ k1 k2 k3 k4 _ _ _ _ _ _ _ _ _)
    iexact Hg
  isplitl [Ho]; · iexact Ho
  isplitl [H0]; · iexists _; iexact H0
  isplitl [H1]; · iexists _; iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact (View.read_writes_eq_canon _ _ _ (cov_epi_o _ _ _ _ _ _ _ _ _ _ _ _ _ _ _ _ _ _ _ _ _ _ k1 k2 k3 k4 _ _ _ _ _ _ _ _ _)).trans (canon_epi_o _ _ _ _ _ _ _ _ _ _ _ _ _ _ _ _ _ _ _ _ _ _ k1 k2 k3 k4 _ _ _ _ _ _ _ _ _)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 3 = 0
  · exact sound_reset m c t h0
  · by_cases h2 : t.val % 3 = 2
    · exact sound_epi m c t h2
    · exact sound_plain m c t h0 h2

/-- The library's body obligation, at every point. -/
theorem body_obligation (c : Dev nD) : BodyObligationLoose (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the accumulators' contents are forgotten again. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 75 := N_0; omega), PhiA_eq]
  iintro ⟨⟨HN, HE⟩, Hg⟩
  isplitl [HN HE]
  · isplitl [HN]
    · iexists _; iexact HN
    · iexists _; iexact HE
  iexact Hg

/-! ## The run and the frame -/

set_option backward.isDefEq.respectTransparency.types false in
/-- Every weakly fair execution of @main terminates without a fault, and every final state has every array of
    the pipeline at what the proof data compute and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := body_obligation m) (hshare := fun c => (dats m 0 c).share_full fun _ => rfl)
    (howed := fun _ _ => rfl) (V := V m)
    (hmain := hmain m Variants.none) (hA := A_eq m) (hin := hin m) (hout := hout m)

/-- The frame: the seven argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Hand

end
-- ==== Proof.Spec.lean ====
/-
  The factor-graph convolution as one function of its seven argument arrays, over the extended reals:
    support(A)[r, d]  = Σ_{c < 10000} A[r, c] · feats[c, d]
    affine(A, W, b)[r, q] = Σ_{d < 128} support(A)[r, d] · W[d, q] + b[q]
    conv[r, q] = max(affine(node_adj, W_n, b_n)[r, q], 0) + affine(edge_adj, W_e, b_e)[r, q].
  Also the one law of sums the tiled kernel needs: a sum over 10000 terms is the sum of three tiles of 4096
  terms each, accumulated from zero in order, when the terms from 10000 on vanish. Addition on the extended
  reals is commutative and associative, so no finiteness is needed.
-/
import Idealize.ShloMosaic.PureOps.Ideal
import Idealize.ShloMosaic.Lib.ValueIdx
import Mathlib.Algebra.BigOperators.Fin
import Mathlib.Algebra.BigOperators.Intervals

noncomputable section

namespace Cert.Spec

open Idealize.ShloMosaic Idealize.ShloMosaic.ValueIdx

abbrev Mat (a b : Nat) : Type := (⟨2, ![a, b]⟩ : Shape).Idx → EReal
abbrev Row (a : Nat) : Type := (⟨1, ![a]⟩ : Shape).Idx → EReal

/-- (A · feats)[r, d]. -/
def support (A : Mat 10000 10000) (f : Mat 10000 128) (r : Fin 10000) (d : Fin 128) : EReal :=
  ∑ c : Fin 10000, A (ix2 r c) * f (ix2 c d)

/-- ((A · feats) · W + b)[r, q]. -/
def affine (A : Mat 10000 10000) (f : Mat 10000 128) (W : Mat 128 128) (b : Row 128) (r : Fin 10000) (q : Fin 128) : EReal :=
  (∑ d : Fin 128, support A f r d * W (ix2 d q)) + b (ix1 q)

/-- relu(node branch) + edge branch, at the row r and column q. -/
def convAt (f : Mat 10000 128) (A B : Mat 10000 10000) (Wn : Mat 128 128) (bn : Row 128) (We : Mat 128 128) (be : Row 128)
    (r : Fin 10000) (q : Fin 128) : EReal :=
  max (affine A f Wn bn r q) 0 + affine B f We be r q

/-- The whole result array. -/
def conv (f : Mat 10000 128) (A B : Mat 10000 10000) (Wn : Mat 128 128) (bn : Row 128) (We : Mat 128 128) (be : Row 128) : Mat 10000 128 :=
  fun j => convAt f A B Wn bn We be (j 0) (j 1)

theorem conv_ix2 (f : Mat 10000 128) (A B : Mat 10000 10000) (Wn : Mat 128 128) (bn : Row 128) (We : Mat 128 128) (be : Row 128)
    (r : Fin 10000) (q : Fin 128) : conv f A B Wn bn We be (ix2 r q) = convAt f A B Wn bn We be r q := rfl

/-- Three tiles of 4096 terms accumulated from zero are the sum of the first 10000 terms, when the terms from
    10000 on vanish. -/
theorem tiles_sum (T : ℕ → EReal) (hz : ∀ n, 10000 ≤ n → T n = 0) :
    ((0 + ∑ c : Fin 4096, T c.val) + ∑ c : Fin 4096, T (4096 + c.val)) + ∑ c : Fin 4096, T (8192 + c.val)
      = ∑ c : Fin 10000, T c.val := by
  rw [zero_add, Fin.sum_univ_eq_sum_range (fun n => T n) 4096, Fin.sum_univ_eq_sum_range (fun n => T (4096 + n)) 4096,
    Fin.sum_univ_eq_sum_range (fun n => T (8192 + n)) 4096, Fin.sum_univ_eq_sum_range (fun n => T n) 10000,
    ← Finset.sum_range_add (fun n => T n) 4096 4096, ← Finset.sum_range_add (fun n => T n) (4096 + 4096) 4096,
    show 4096 + 4096 + 4096 = 10000 + 2288 from rfl, Finset.sum_range_add (fun n => T n) 10000 2288,
    Finset.sum_eq_zero (fun x _ => hz (10000 + x) (Nat.le_add_right _ _)), add_zero]

end Cert.Spec

end
-- ==== Proof.ValueSide.Blocks.lean ====
/-
  The windows' blocks read at an index, over the extended reals.
  The adjacency tile at point t = 3 i + k, at row p and column q, is the array's entry at row 400 i + p and
  column 4096 k + q whenever that column is inside the array. The padded feature matrix is feats on its first
  10000 rows and zero below; the slab loaded at a point is its rows from 4096 k on. The weight matrices are
  resident whole; a bias row is the bias vector.
-/
import proofs.«148361_g77704548319642_cont_9to1_m_740_8_alg».proof.Proof.IdealSide.Data
import proofs.«148361_g77704548319642_cont_9to1_m_740_8_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Hand

variable (m : (ℓ : Loc nD τ sig) → Buf (Elt Ideal) ℓ)

/-- The array row of tile row p at point t: 400 (t / 3) + p. -/
def rowOf (t : Fin cfg0.N) (p : Fin 400) : Fin 10000 :=
  ⟨400 * (t.val / 3) + p.val, by have := lt_of_lt_of_eq t.isLt (show cfg0.N = 75 from N_0); have := p.isLt; omega⟩

/-- The adjacency windows' block index at point t is (t / 3, t % 3). -/
theorem adjN_index : ∀ t : Fin cfg0.N, win0_0.index t 0 = t.val / 3 ∧ win0_0.index t 1 = t.val % 3 :=
  (by decide +kernel : ∀ t : Fin grid0.N, win0_0.index t 0 = t.val / 3 ∧ win0_0.index t 1 = t.val % 3)
theorem adjE_index : ∀ t : Fin cfg0.N, win0_1.index t 0 = t.val / 3 ∧ win0_1.index t 1 = t.val % 3 :=
  (by decide +kernel : ∀ t : Fin grid0.N, win0_1.index t 0 = t.val / 3 ∧ win0_1.index t 1 = t.val % 3)

/-- The part of an adjacency block inside the array: all 400 rows, and the columns up to the array's end. -/
theorem adjN_inside : ∀ t : Fin cfg0.N, win0_0.xsize (grid0.coords t) 0 = 400 ∧ win0_0.xsize (grid0.coords t) 1 = min 4096 (10000 - 4096 * (t.val % 3)) :=
  (by decide +kernel : ∀ t : Fin grid0.N, win0_0.xsize (grid0.coords t) 0 = 400 ∧ win0_0.xsize (grid0.coords t) 1 = min 4096 (10000 - 4096 * (t.val % 3)))
theorem adjE_inside : ∀ t : Fin cfg0.N, win0_1.xsize (grid0.coords t) 0 = 400 ∧ win0_1.xsize (grid0.coords t) 1 = min 4096 (10000 - 4096 * (t.val % 3)) :=
  (by decide +kernel : ∀ t : Fin grid0.N, win0_1.xsize (grid0.coords t) 0 = 400 ∧ win0_1.xsize (grid0.coords t) 1 = min 4096 (10000 - 4096 * (t.val % 3)))

/-- The resident windows' block index is (0, 0) at every point. -/
theorem feats_index : ∀ t : Fin cfg0.N, win0_2.index t 0 = 0 ∧ win0_2.index t 1 = 0 :=
  (by decide +kernel : ∀ t : Fin grid0.N, win0_2.index t 0 = 0 ∧ win0_2.index t 1 = 0)
theorem wn_index : ∀ t : Fin cfg0.N, win0_3.index t 0 = 0 ∧ win0_3.index t 1 = 0 :=
  (by decide +kernel : ∀ t : Fin grid0.N, win0_3.index t 0 = 0 ∧ win0_3.index t 1 = 0)
theorem bn_index : ∀ t : Fin cfg0.N, win0_4.index t 0 = 0 ∧ win0_4.index t 1 = 0 :=
  (by decide +kernel : ∀ t : Fin grid0.N, win0_4.index t 0 = 0 ∧ win0_4.index t 1 = 0)
theorem we_index : ∀ t : Fin cfg0.N, win0_5.index t 0 = 0 ∧ win0_5.index t 1 = 0 :=
  (by decide +kernel : ∀ t : Fin grid0.N, win0_5.index t 0 = 0 ∧ win0_5.index t 1 = 0)
theorem be_index : ∀ t : Fin cfg0.N, win0_6.index t 0 = 0 ∧ win0_6.index t 1 = 0 :=
  (by decide +kernel : ∀ t : Fin grid0.N, win0_6.index t 0 = 0 ∧ win0_6.index t 1 = 0)

theorem tileN_apply (c : Dev nD) (t : Fin cfg0.N) (p : Fin 400) (q : Fin 4096) (hq : 4096 * (t.val % 3) + q.val < 10000) :
    tileN (F := Ideal) m c t (ix2 p q) = m ((c : Thread nD τ).loc main_arg1) (ix2 (rowOf t p) ⟨4096 * (t.val % 3) + q.val, hq⟩) := by
  -- the index lies in the part of the block inside the array
  have hm : win0_0.moved (grid0.coords t) (ix2 p q) = true := by
    rw [Window.moved_iff]
    intro a
    match a with
    | ⟨0, _⟩ => show p.val < win0_0.xsize (grid0.coords t) 0; rw [(adjN_inside t).1]; exact p.isLt
    | ⟨1, _⟩ => show q.val < win0_0.xsize (grid0.coords t) 1; rw [(adjN_inside t).2]; have := q.isLt; omega
  unfold tileN Window.fill
  rw [dif_pos hm]
  unfold iblk
  rw [View.read_apply]
  show V m c main_arg1 (((cfg0.win 0).blk t).view.emb fun a => ⟨(ix2 p q a).val, _⟩) = _
  refine (congrFun (V_main_arg1 m c) _).trans ?_
  refine congrArg (m ((c : Thread nD τ).loc main_arg1)) ?_
  -- a block's coordinate in the array is index × size + the coordinate inside the block
  funext a
  apply Fin.ext
  match a with
  | ⟨0, _⟩ => show win0_0.index t 0 * 400 + 1 * p.val = 400 * (t.val / 3) + p.val; rw [(adjN_index t).1]; omega
  | ⟨1, _⟩ => show win0_0.index t 1 * 4096 + 1 * q.val = 4096 * (t.val % 3) + q.val; rw [(adjN_index t).2]; omega

theorem tileE_apply (c : Dev nD) (t : Fin cfg0.N) (p : Fin 400) (q : Fin 4096) (hq : 4096 * (t.val % 3) + q.val < 10000) :
    tileE (F := Ideal) m c t (ix2 p q) = m ((c : Thread nD τ).loc main_arg2) (ix2 (rowOf t p) ⟨4096 * (t.val % 3) + q.val, hq⟩) := by
  have hm : win0_1.moved (grid0.coords t) (ix2 p q) = true := by
    rw [Window.moved_iff]
    intro a
    match a with
    | ⟨0, _⟩ => show p.val < win0_1.xsize (grid0.coords t) 0; rw [(adjE_inside t).1]; exact p.isLt
    | ⟨1, _⟩ => show q.val < win0_1.xsize (grid0.coords t) 1; rw [(adjE_inside t).2]; have := q.isLt; omega
  unfold tileE Window.fill
  rw [dif_pos hm]
  unfold iblk
  rw [View.read_apply]
  show V m c main_arg2 (((cfg0.win 1).blk t).view.emb fun a => ⟨(ix2 p q a).val, _⟩) = _
  refine (congrFun (V_main_arg2 m c) _).trans ?_
  refine congrArg (m ((c : Thread nD τ).loc main_arg2)) ?_
  funext a
  apply Fin.ext
  match a with
  | ⟨0, _⟩ => show win0_1.index t 0 * 400 + 1 * p.val = 400 * (t.val / 3) + p.val; rw [(adjE_index t).1]; omega
  | ⟨1, _⟩ => show win0_1.index t 1 * 4096 + 1 * q.val = 4096 * (t.val % 3) + q.val; rw [(adjE_index t).2]; omega

/-- The row padding read at an index: the operand on the first 10000 rows, the padding value below. -/
theorem pad_rows (x : S10000x128.Idx → EReal) (v : S_.Idx → EReal) (r : Fin 12288) (d : Fin 128) :
    pad S12288x128 ![0, 0] ![2288, 0] ![0, 0] x v pads_S10000x128_S12288x128_022880_000 h_S_ (ix2 r d)
      = if h : r.val < 10000 then x (ix2 ⟨r.val, h⟩ d) else v (Shape.Idx.first h_S_) := by
  unfold pad
  by_cases h : r.val < 10000
  · rw [dif_pos h]
    split
    · refine congrArg x ?_
      funext a
      apply Fin.ext
      match a with
      | ⟨0, _⟩ => show (r.val - 0) / (0 + 1) = r.val; omega
      | ⟨1, _⟩ => show (d.val - 0) / (0 + 1) = d.val; omega
    · next hn =>
      refine absurd (fun a => ?_) hn
      match a with
      | ⟨0, _⟩ => exact ⟨Nat.zero_le _, by show (r.val - 0) % (0 + 1) = 0; omega, by show (r.val - 0) / (0 + 1) < 10000; omega⟩
      | ⟨1, _⟩ => exact ⟨Nat.zero_le _, by show (d.val - 0) % (0 + 1) = 0; omega, by show (d.val - 0) / (0 + 1) < 128; have := d.isLt; omega⟩
  · rw [dif_neg h]
    split
    · next hin =>
      have h0 := (hin ⟨0, by decide⟩).2.2
      have h1 : (r.val - 0) / (0 + 1) < 10000 := h0
      omega
    · rfl

/-- The padded feature matrix: feats on the first 10000 rows, zero below. -/
theorem feats_apply (c : Dev nD) (t : Fin cfg0.N) (r : Fin 12288) (d : Fin 128) :
    featsBlk (F := Ideal) m c t (ix2 r d) = ((if h : r.val < 10000 then (m ((c : Thread nD τ).loc main_arg0) (ix2 ⟨r.val, h⟩ d) : EReal) else (0 : EReal)) : EReal) := by
  -- the array the window reads is the feature matrix padded below with the integer zero converted
  have e : (V m c main_call0_v0 : S12288x128.Idx → EReal) = pad S12288x128 ![0, 0] ![2288, 0] ![0, 0] (m ((c : Thread nD τ).loc main_arg0))
      (sitofp (F := Ideal) .f32 (constantI S_ 32 0#32)) pads_S10000x128_S12288x128_022880_000 h_S_ := by
    dsimp only [Gen.V, Gen.hostOps0]; after_results; rfl
  have hi : (((cfg0.win 2).blk t).view.emb (ix2 r d) : S12288x128.Idx) = ix2 r d := by
    funext a
    apply Fin.ext
    match a with
    | ⟨0, _⟩ => show win0_2.index t 0 * 12288 + 1 * r.val = r.val; rw [(feats_index t).1]; omega
    | ⟨1, _⟩ => show win0_2.index t 1 * 128 + 1 * d.val = d.val; rw [(feats_index t).2]; omega
  unfold featsBlk iblk
  rw [View.read_apply]
  show (V m c main_call0_v0 : S12288x128.Idx → EReal) (((cfg0.win 2).blk t).view.emb (ix2 r d)) = _
  refine (congrArg (V m c main_call0_v0 : S12288x128.Idx → EReal) hi).trans ?_
  rw [e]
  refine (pad_rows _ _ r d).trans ?_
  by_cases h : r.val < 10000
  · rw [dif_pos h, dif_pos h]
  · rw [dif_neg h, dif_neg h]
    show (((0#32 : BitVec 32).toInt : ℝ) : EReal) = 0
    simp

/-- The slab's row offset: the word 4096 · k read as a natural number, for k below 3. -/
theorem slab_offset : ∀ k : Fin 3, (Scalar.indexCast (Scalar.muli (BitVec.ofNat 32 k.val) 4096#32)).toNat = 4096 * k.val := by decide

/-- The slab loaded at a point with coordinates i is the rows from 4096 k on. -/
theorem slab_apply (i : grid0.Coords) (xf : Vec Ideal S12288x128 .f32) (r : Fin 4096) (d : Fin 128) :
    slab (F := Ideal) i xf (ix2 r d) = xf (ix2 ⟨4096 * (i 1).val + r.val, by have h3 : (i 1).val < 3 := (i 1).isLt; have := r.isLt; omega⟩ d) := by
  unfold slab
  show xf ((Rect.unit (s := S12288x128) (k0_off1 i) S4096x128.size (k0_off1_inb i)).emb (ix2 r d)) = _
  refine congrArg xf ?_
  funext a
  apply Fin.ext
  match a with
  | ⟨0, _⟩ =>
    show (Scalar.indexCast (Scalar.muli (BitVec.ofNat 32 (i 1).val) 4096#32)).toNat + 1 * r.val = 4096 * (i 1).val + r.val
    rw [slab_offset (i 1)]; omega
  | ⟨1, _⟩ => show 0 + 1 * d.val = d.val; omega

theorem wn_eq (c : Dev nD) (t : Fin cfg0.N) : wnBlk (F := Ideal) m c t = m ((c : Thread nD τ).loc main_arg3) := by
  funext j
  unfold wnBlk iblk
  rw [View.read_apply]
  show V m c main_arg3 (((cfg0.win 3).blk t).view.emb j) = _
  refine (congrFun (V_main_arg3 m c) _).trans ?_
  refine congrArg (m ((c : Thread nD τ).loc main_arg3)) ?_
  funext a
  apply Fin.ext
  match a with
  | ⟨0, _⟩ => show win0_3.index t 0 * 128 + 1 * (j 0).val = (j 0).val; rw [(wn_index t).1]; omega
  | ⟨1, _⟩ => show win0_3.index t 1 * 128 + 1 * (j 1).val = (j 1).val; rw [(wn_index t).2]; omega

theorem we_eq (c : Dev nD) (t : Fin cfg0.N) : weBlk (F := Ideal) m c t = m ((c : Thread nD τ).loc main_arg5) := by
  funext j
  unfold weBlk iblk
  rw [View.read_apply]
  show V m c main_arg5 (((cfg0.win 5).blk t).view.emb j) = _
  refine (congrFun (V_main_arg5 m c) _).trans ?_
  refine congrArg (m ((c : Thread nD τ).loc main_arg5)) ?_
  funext a
  apply Fin.ext
  match a with
  | ⟨0, _⟩ => show win0_5.index t 0 * 128 + 1 * (j 0).val = (j 0).val; rw [(we_index t).1]; omega
  | ⟨1, _⟩ => show win0_5.index t 1 * 128 + 1 * (j 1).val = (j 1).val; rw [(we_index t).2]; omega

theorem bn_apply (c : Dev nD) (t : Fin cfg0.N) (z : Fin 1) (q : Fin 128) :
    bnBlk (F := Ideal) m c t (ix2 z q) = m ((c : Thread nD τ).loc main_arg4) (ix1 q) := by
  -- the array the window reads is the bias vector with a leading unit axis
  have e : (V m c main_call0_v1 : S1x128.Idx → EReal) = shapeCast S1x128 (m ((c : Thread nD τ).loc main_arg4)) shapeCasts_S128_S1x128 := by
    dsimp only [Gen.V, Gen.hostOps0]; after_results; rfl
  have hi : (((cfg0.win 4).blk t).view.emb (ix2 z q) : S1x128.Idx) = ix2 z q := by
    funext a
    apply Fin.ext
    match a with
    | ⟨0, _⟩ => show win0_4.index t 0 * 1 + 1 * z.val = z.val; rw [(bn_index t).1]; omega
    | ⟨1, _⟩ => show win0_4.index t 1 * 128 + 1 * q.val = q.val; rw [(bn_index t).2]; omega
  unfold bnBlk iblk
  rw [View.read_apply]
  show (V m c main_call0_v1 : S1x128.Idx → EReal) (((cfg0.win 4).blk t).view.emb (ix2 z q)) = _
  refine (congrArg (V m c main_call0_v1 : S1x128.Idx → EReal) hi).trans ?_
  rw [e]
  exact shapeCast_a_1a_apply _ _ z q

theorem be_apply (c : Dev nD) (t : Fin cfg0.N) (z : Fin 1) (q : Fin 128) :
    beBlk (F := Ideal) m c t (ix2 z q) = m ((c : Thread nD τ).loc main_arg6) (ix1 q) := by
  have e : (V m c main_call0_v2 : S1x128.Idx → EReal) = shapeCast S1x128 (m ((c : Thread nD τ).loc main_arg6)) shapeCasts_S128_S1x128 := by
    dsimp only [Gen.V, Gen.hostOps0]; after_results; rfl
  have hi : (((cfg0.win 6).blk t).view.emb (ix2 z q) : S1x128.Idx) = ix2 z q := by
    funext a
    apply Fin.ext
    match a with
    | ⟨0, _⟩ => show win0_6.index t 0 * 1 + 1 * z.val = z.val; rw [(be_index t).1]; omega
    | ⟨1, _⟩ => show win0_6.index t 1 * 128 + 1 * q.val = q.val; rw [(be_index t).2]; omega
  unfold beBlk iblk
  rw [View.read_apply]
  show (V m c main_call0_v2 : S1x128.Idx → EReal) (((cfg0.win 6).blk t).view.emb (ix2 z q)) = _
  refine (congrArg (V m c main_call0_v2 : S1x128.Idx → EReal) hi).trans ?_
  rw [e]
  exact shapeCast_a_1a_apply _ _ z q

end Cert.KernelIdeal.Val

end
-- ==== Proof.ValueSide.Epilogue.lean ====
/-
  The epilogue at an index, over the extended reals: from the two accumulators, the two weight matrices and the two
  bias rows, entry (p, q) of the stored block is max(Σ_d acc_n[p, d] · W_n[d, q] + b_n[q], 0) + (Σ_d acc_e[p, d] · W_e[d, q] + b_e[q]).
-/
import proofs.«148361_g77704548319642_cont_9to1_m_740_8_alg».proof.Proof.IdealSide.Data
import proofs.«148361_g77704548319642_cont_9to1_m_740_8_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Hand

variable (m : (ℓ : Loc nD τ sig) → Buf (Elt Ideal) ℓ)

theorem lhsW_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem lhsW_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem rhsW_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem rhsW_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- The accumulator-by-weights product into the zero constant, at row p and column q. -/
theorem dotW_apply (x : FVec Ideal S400x128 .f32) (y : FVec Ideal S128x128 .f32) (p : Fin 400) (q : Fin 128) :
    matmul dot_S400x128_S128x128_S400x128_1_0_0_1_n_n none x y (constant S400x128 .f32 0x00000000#32) (ix2 p q)
      = ∑ d : Fin 128, x (ix2 p d) * y (ix2 d q) := by
  simp only [matmul]
  rw [Ideal.matmul_constant_zero_apply, ← Equiv.sum_comp (ValueIdx.contrEquiv1 dot_S400x128_S128x128_S400x128_1_0_0_1_n_n 128 rfl rfl).symm]
  refine Finset.sum_congr rfl fun k _ => ?_
  have hk := ValueIdx.contrEquiv1_symm_val dot_S400x128_S128x128_S400x128_1_0_0_1_n_n 128 rfl rfl k
  have el : dot_S400x128_S128x128_S400x128_1_0_0_1_n_n.lhsIdx (ix2 p q) ((ValueIdx.contrEquiv1 dot_S400x128_S128x128_S400x128_1_0_0_1_n_n 128 rfl rfl).symm k) = ix2 p k := funext fun a => Fin.ext (by
    match a with
    | ⟨0, _⟩ => exact lhsW_0 _ _
    | ⟨1, _⟩ => exact (lhsW_1 _ _).trans hk)
  have er : dot_S400x128_S128x128_S400x128_1_0_0_1_n_n.rhsIdx (ix2 p q) ((ValueIdx.contrEquiv1 dot_S400x128_S128x128_S400x128_1_0_0_1_n_n 128 rfl rfl).symm k) = ix2 k q := funext fun a => Fin.ext (by
    match a with
    | ⟨0, _⟩ => exact (rhsW_0 _ _).trans hk
    | ⟨1, _⟩ => exact rhsW_1 _ _)
  rw [el, er]

/-- A bias row broadcast down the 400 rows reads the row. -/
theorem bias_apply (b : Vec Ideal S1x128 .f32) (p : Fin 400) (q : Fin 128) :
    broadcastTo S400x128 (shapeCast S1x128 b shapeCasts_S1x128_S1x128) broadcasts_S1x128_S400x128 (ix2 p q) = b (ix2 (0 : Fin 1) q) := by
  rw [shapeCast_self]
  exact broadcastTo_apply b broadcasts_S1x128_S400x128 (ix2 p q) (ix2 0 q) (fun a => match a with
    | ⟨0, _⟩ => by show 0 = if (1 : Nat) = 1 then 0 else _; rw [if_pos rfl]
    | ⟨1, _⟩ => by show q.val = if (128 : Nat) = 1 then 0 else q.val; rw [if_neg (by decide)])

/-- The epilogue. -/
theorem pay9_apply (accn : Vec Ideal S400x128 .f32) (wn : Vec Ideal S128x128 .f32) (bn : Vec Ideal S1x128 .f32)
    (acce : Vec Ideal S400x128 .f32) (we : Vec Ideal S128x128 .f32) (be : Vec Ideal S1x128 .f32) (p : Fin 400) (q : Fin 128) :
    k0_pay9 (F := Ideal) accn wn bn acce we be (ix2 p q)
      = max ((∑ d : Fin 128, (accn (ix2 p d) : EReal) * wn (ix2 d q)) + bn (ix2 (0 : Fin 1) q)) 0
        + ((∑ d : Fin 128, (acce (ix2 p d) : EReal) * we (ix2 d q)) + be (ix2 (0 : Fin 1) q)) := by
  dsimp only [k0_pay9]
  rw [addf_apply, maximumf_apply, addf_apply, addf_apply, dotW_apply, dotW_apply, bias_apply, bias_apply, broadcast_apply]
  rw [show (Scalar.ofBits (F := Ideal) .f32 0x00000000#32 : EReal) = 0 from Ideal.ofBits_zero_f32]

end Cert.KernelIdeal.Val

end
-- ==== Proof.ValueSide.Accum.lean ====
/-
  What the accumulators and the output buffer hold at the points with k = 2, over the extended reals.
  Entry (p, d) of the node accumulator after the three points of row tile i is
    ((0 + Σ_{c<4096} T c) + Σ_{c<4096} T (4096 + c)) + Σ_{c<4096} T (8192 + c)
  with T n = A[400 i + p, n] · feats[n, d] for n < 10000 and 0 from there on (the mask clears the adjacency
  factor and the padding the feature factor), which is the support (A · feats)[400 i + p, d]. The output
  buffer then holds max(acc_n · W_n + b_n, 0) + (acc_e · W_e + b_e): the convolution's rows 400 i … 400 i + 399.
-/
import proofs.«148361_g77704548319642_cont_9to1_m_740_8_alg».proof.Proof.ValueSide.Blocks
import proofs.«148361_g77704548319642_cont_9to1_m_740_8_alg».proof.Proof.IdealSide.Mask
import proofs.«148361_g77704548319642_cont_9to1_m_740_8_alg».proof.Proof.ValueSide.Epilogue
import proofs.«148361_g77704548319642_cont_9to1_m_740_8_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Hand

/-! ## The tile-by-slab contraction read at an index -/

theorem lhsA_0 (i : S400x128.Idx) (q : dot_S400x4096_S4096x128_S400x128_1_0_0_1_n_n.contr.Idx) :
    (dot_S400x4096_S4096x128_S400x128_1_0_0_1_n_n.lhsIdx i q 0).val = (i 0).val := by
  unfold DotDims.lhsIdx
  rw [dif_neg (show ¬(0 : Fin S400x4096.rank) ∈ dot_S400x4096_S4096x128_S400x128_1_0_0_1_n_n.lhsBatch by decide), dif_pos (show (0 : Fin S400x4096.rank) ∈ dot_S400x4096_S4096x128_S400x128_1_0_0_1_n_n.lhsNonContracting by decide)]
  rfl
theorem lhsA_1 (i : S400x128.Idx) (q : dot_S400x4096_S4096x128_S400x128_1_0_0_1_n_n.contr.Idx) :
    (dot_S400x4096_S4096x128_S400x128_1_0_0_1_n_n.lhsIdx i q 1).val = (q ⟨0, by decide⟩).val :=
  dot_S400x4096_S4096x128_S400x128_1_0_0_1_n_n.lhsIdx_val_of_single rfl i q
theorem rhsA_0 (i : S400x128.Idx) (q : dot_S400x4096_S4096x128_S400x128_1_0_0_1_n_n.contr.Idx) :
    (dot_S400x4096_S4096x128_S400x128_1_0_0_1_n_n.rhsIdx i q 0).val = (q ⟨0, by decide⟩).val :=
  dot_S400x4096_S4096x128_S400x128_1_0_0_1_n_n.rhsIdx_val_of_single rfl i q
theorem rhsA_1 (i : S400x128.Idx) (q : dot_S400x4096_S4096x128_S400x128_1_0_0_1_n_n.contr.Idx) :
    (dot_S400x4096_S4096x128_S400x128_1_0_0_1_n_n.rhsIdx i q 1).val = (i 1).val := by
  unfold DotDims.rhsIdx
  rw [dif_neg (show ¬(1 : Fin S4096x128.rank) ∈ dot_S400x4096_S4096x128_S400x128_1_0_0_1_n_n.rhsBatch by decide), dif_pos (show (1 : Fin S4096x128.rank) ∈ dot_S400x4096_S4096x128_S400x128_1_0_0_1_n_n.rhsNonContracting by decide)]
  rfl

/-- The tile-by-slab product into the zero constant, at row p and column d: the sum over the 4096 columns of the tile. -/
theorem dotA_apply (x : FVec Ideal S400x4096 .bf16) (y : FVec Ideal S4096x128 .bf16) (p : Fin 400) (d : Fin 128) :
    matmul dot_S400x4096_S4096x128_S400x128_1_0_0_1_n_n none x y (constant S400x128 .f32 0x00000000#32) (ix2 p d)
      = ∑ c : Fin 4096, x (ix2 p c) * y (ix2 c d) := by
  simp only [matmul]
  rw [Ideal.matmul_constant_zero_apply, ← Equiv.sum_comp (ValueIdx.contrEquiv1 dot_S400x4096_S4096x128_S400x128_1_0_0_1_n_n 4096 rfl rfl).symm]
  refine Finset.sum_congr rfl fun k _ => ?_
  have hk := ValueIdx.contrEquiv1_symm_val dot_S400x4096_S4096x128_S400x128_1_0_0_1_n_n 4096 rfl rfl k
  have el : dot_S400x4096_S4096x128_S400x128_1_0_0_1_n_n.lhsIdx (ix2 p d) ((ValueIdx.contrEquiv1 dot_S400x4096_S4096x128_S400x128_1_0_0_1_n_n 4096 rfl rfl).symm k) = ix2 p k := funext fun a => Fin.ext (by
    match a with
    | ⟨0, _⟩ => exact lhsA_0 _ _
    | ⟨1, _⟩ => exact (lhsA_1 _ _).trans hk)
  have er : dot_S400x4096_S4096x128_S400x128_1_0_0_1_n_n.rhsIdx (ix2 p d) ((ValueIdx.contrEquiv1 dot_S400x4096_S4096x128_S400x128_1_0_0_1_n_n 4096 rfl rfl).symm k) = ix2 k d := funext fun a => Fin.ext (by
    match a with
    | ⟨0, _⟩ => exact (rhsA_0 _ _).trans hk
    | ⟨1, _⟩ => exact rhsA_1 _ _)
  rw [el, er]

/-! ## The payloads read at an index -/

/-- The slab after its format change: itself. -/
theorem pay3_apply (sl : Vec Ideal S4096x128 .f32) (j : S4096x128.Idx) : k0_pay3 (F := Ideal) sl j = sl j := by
  dsimp only [k0_pay3]
  rw [truncf_apply, shapeCast_self]

/-- The reset value of the node accumulator: zero. -/
theorem pay1_apply (j : S400x128.Idx) : k0_pay1 (F := Ideal) j = (0 : EReal) := by
  dsimp only [k0_pay1]
  rw [shapeCast_self, broadcast_apply]
  exact Ideal.ofBits_zero_f32

/-- The reset value of the edge accumulator: zero. -/
theorem pay2_apply (j : S400x128.Idx) : k0_pay2 (F := Ideal) j = (0 : EReal) := by
  dsimp only [k0_pay2]
  rw [shapeCast_self, broadcast_apply]
  exact Ideal.ofBits_zero_f32

/-- The plain accumulation of the node branch. -/
theorem pay7_apply (sl : Vec Ideal S4096x128 .f32) (tile : Vec Ideal S400x4096 .f32) (acc : Vec Ideal S400x128 .f32) (p : Fin 400) (d : Fin 128) :
    k0_pay7 (F := Ideal) sl tile acc (ix2 p d) = (acc (ix2 p d) : EReal) + ∑ c : Fin 4096, (tile (ix2 p c) : EReal) * sl (ix2 c d) := by
  dsimp only [k0_pay7]
  rw [shapeCast_self, addf_apply, dotA_apply]
  refine congrArg ((acc (ix2 p d) : EReal) + ·) (Finset.sum_congr rfl fun c _ => ?_)
  rw [truncf_apply, pay3_apply]

/-- The plain accumulation of the edge branch. -/
theorem pay8_apply (sl : Vec Ideal S4096x128 .f32) (tile : Vec Ideal S400x4096 .f32) (acc : Vec Ideal S400x128 .f32) (p : Fin 400) (d : Fin 128) :
    k0_pay8 (F := Ideal) sl tile acc (ix2 p d) = (acc (ix2 p d) : EReal) + ∑ c : Fin 4096, (tile (ix2 p c) : EReal) * sl (ix2 c d) := by
  dsimp only [k0_pay8]
  rw [shapeCast_self, addf_apply, dotA_apply]
  refine congrArg ((acc (ix2 p d) : EReal) + ·) (Finset.sum_congr rfl fun c _ => ?_)
  rw [truncf_apply, pay3_apply]

/-- A tile entry selected through the mask against the zero filler. -/
theorem masked_entry (i : grid0.Coords) (tile : Vec Ideal S400x4096 .f32) (j : S400x4096.Idx) :
    select (k0_pay4 i) tile (broadcast S400x4096 (Scalar.ofBits (F := Ideal) .f32 0x00000000#32)) j
      = (if k0_pay4 i j = 1#1 then (tile j : EReal) else 0) := by
  rw [select_apply, broadcast_apply]
  by_cases h : k0_pay4 i j = 1#1
  · rw [if_pos h, h, select_one]
  · rw [if_neg h, eq_zero_of_ne_one h, select_zero]; exact Ideal.ofBits_zero_f32

/-- The masked accumulation of the node branch. -/
theorem pay5_apply (i : grid0.Coords) (sl : Vec Ideal S4096x128 .f32) (tile : Vec Ideal S400x4096 .f32) (acc : Vec Ideal S400x128 .f32) (p : Fin 400) (d : Fin 128) :
    k0_pay5 (F := Ideal) i sl tile acc (ix2 p d)
      = (acc (ix2 p d) : EReal) + ∑ c : Fin 4096, (if k0_pay4 i (ix2 p c) = 1#1 then (tile (ix2 p c) : EReal) else 0) * sl (ix2 c d) := by
  dsimp only [k0_pay5]
  rw [shapeCast_self, addf_apply, dotA_apply]
  refine congrArg ((acc (ix2 p d) : EReal) + ·) (Finset.sum_congr rfl fun c _ => ?_)
  rw [truncf_apply, pay3_apply, masked_entry]

/-- The masked accumulation of the edge branch. -/
theorem pay6_apply (i : grid0.Coords) (sl : Vec Ideal S4096x128 .f32) (tile : Vec Ideal S400x4096 .f32) (acc : Vec Ideal S400x128 .f32) (p : Fin 400) (d : Fin 128) :
    k0_pay6 (F := Ideal) i sl tile acc (ix2 p d)
      = (acc (ix2 p d) : EReal) + ∑ c : Fin 4096, (if k0_pay4 i (ix2 p c) = 1#1 then (tile (ix2 p c) : EReal) else 0) * sl (ix2 c d) := by
  dsimp only [k0_pay6]
  rw [shapeCast_self, addf_apply, dotA_apply]
  refine congrArg ((acc (ix2 p d) : EReal) + ·) (Finset.sum_congr rfl fun c _ => ?_)
  rw [truncf_apply, pay3_apply, masked_entry]

/-! ## One tile's sum -/

variable (m : (ℓ : Loc nD τ sig) → Buf (Elt Ideal) ℓ)

/-- The contraction coordinate of a point is its position modulo 3. -/
theorem coords_k : ∀ t : Fin cfg0.N, (grid0.coords t 1).val = t.val % 3 :=
  (by decide +kernel : ∀ t : Fin grid0.N, (grid0.coords t 1).val = t.val % 3)

/-- The n-th term of the support's sum at row r and column d, zero from 10000 on. -/
def term (A : Cert.Spec.Mat 10000 10000) (f : Cert.Spec.Mat 10000 128) (r : Fin 10000) (d : Fin 128) (n : ℕ) : EReal :=
  (if h : n < 10000 then A (ix2 r ⟨n, h⟩) else 0) * (if h : n < 10000 then f (ix2 ⟨n, h⟩ d) else 0)

theorem term_inside (A : Cert.Spec.Mat 10000 10000) (f : Cert.Spec.Mat 10000 128) (r : Fin 10000) (d : Fin 128) (n : ℕ) (h : n < 10000) :
    term A f r d n = A (ix2 r ⟨n, h⟩) * f (ix2 ⟨n, h⟩ d) := by
  unfold term; rw [dif_pos h, dif_pos h]

theorem term_outside (A : Cert.Spec.Mat 10000 10000) (f : Cert.Spec.Mat 10000 128) (r : Fin 10000) (d : Fin 128) (n : ℕ) (h : 10000 ≤ n) :
    term A f r d n = 0 := by
  unfold term; rw [dif_neg (Nat.not_lt.mpr h), zero_mul]

theorem dite_nat_congr {α : Type} (g : (n : ℕ) → n < 10000 → α) (z : α) {a b : ℕ} (h : a = b) :
    (if h' : a < 10000 then g a h' else z) = (if h' : b < 10000 then g b h' else z) := by
  subst h; rfl

/-- The slab's entry at a point: the feature matrix's row 4096 k + r, zero from row 10000 on. -/
theorem slab_entry (c : Dev nD) (t : Fin cfg0.N) (r : Fin 4096) (d : Fin 128) :
    slab (F := Ideal) (grid0.coords t) (featsBlk m c t) (ix2 r d)
      = (if h : 4096 * (t.val % 3) + r.val < 10000 then (m ((c : Thread nD τ).loc main_arg0) (ix2 ⟨4096 * (t.val % 3) + r.val, h⟩ d) : EReal) else (0 : EReal)) := by
  rw [slab_apply, feats_apply]
  exact dite_nat_congr (fun n h => (m ((c : Thread nD τ).loc main_arg0) (ix2 ⟨n, h⟩ d) : EReal)) (0 : EReal)
    (show 4096 * (grid0.coords t 1).val + r.val = 4096 * (t.val % 3) + r.val by rw [coords_k t])

/-- A masked tile entry times the slab's is the term of the support's sum at the column 4096 k + q. -/
theorem masked_term (c : Dev nD) (t : Fin cfg0.N) (A : Cert.Spec.Mat 10000 10000) (tile : Vec Ideal S400x4096 .f32) (p : Fin 400) (d : Fin 128)
    (htile : ∀ (q : Fin 4096) (hq : 4096 * (t.val % 3) + q.val < 10000), tile (ix2 p q) = A (ix2 (rowOf t p) ⟨4096 * (t.val % 3) + q.val, hq⟩))
    (q : Fin 4096) :
    (if k0_pay4 (grid0.coords t) (ix2 p q) = 1#1 then (tile (ix2 p q) : EReal) else 0) * slab (F := Ideal) (grid0.coords t) (featsBlk m c t) (ix2 q d)
      = term A (m ((c : Thread nD τ).loc main_arg0)) (rowOf t p) d (4096 * (t.val % 3) + q.val) := by
  by_cases hq : 4096 * (t.val % 3) + q.val < 10000
  · have hm : k0_pay4 (grid0.coords t) (ix2 p q) = 1#1 := (mask_apply (grid0.coords t) p q).mpr (by rw [coords_k t]; exact hq)
    rw [if_pos hm, htile q hq, slab_entry, dif_pos hq, term_inside _ _ _ _ _ hq]
  · have hm : ¬k0_pay4 (grid0.coords t) (ix2 p q) = 1#1 := fun h => hq (by have := (mask_apply (grid0.coords t) p q).mp h; rwa [coords_k t] at this)
    rw [if_neg hm, zero_mul, term_outside _ _ _ _ _ (Nat.not_lt.mp hq)]

/-- An unmasked tile entry times the slab's, at a point with k < 2 where every column is inside the array. -/
theorem plain_term (c : Dev nD) (t : Fin cfg0.N) (hk : t.val % 3 ≠ 2) (A : Cert.Spec.Mat 10000 10000) (tile : Vec Ideal S400x4096 .f32) (p : Fin 400) (d : Fin 128)
    (htile : ∀ (q : Fin 4096) (hq : 4096 * (t.val % 3) + q.val < 10000), tile (ix2 p q) = A (ix2 (rowOf t p) ⟨4096 * (t.val % 3) + q.val, hq⟩))
    (q : Fin 4096) :
    (tile (ix2 p q) : EReal) * slab (F := Ideal) (grid0.coords t) (featsBlk m c t) (ix2 q d)
      = term A (m ((c : Thread nD τ).loc main_arg0)) (rowOf t p) d (4096 * (t.val % 3) + q.val) := by
  have hq : 4096 * (t.val % 3) + q.val < 10000 := by have := q.isLt; omega
  rw [htile q hq, slab_entry, dif_pos hq, term_inside _ _ _ _ _ hq]

/-! ## The accumulators after each point -/

/-- The point before one with k ≠ 0 lies in the same row tile. -/
theorem rowOf_pred (t : Fin cfg0.N) (ht1 : t.val - 1 < cfg0.N) (h : ¬t.val % 3 = 0) (p : Fin 400) : rowOf ⟨t.val - 1, ht1⟩ p = rowOf t p :=
  Fin.ext (by show 400 * ((t.val - 1) / 3) + p.val = 400 * (t.val / 3) + p.val; omega)

/-- The terms below 10000 sum to the support. -/
theorem sum_term_eq_support (A : Cert.Spec.Mat 10000 10000) (f : Cert.Spec.Mat 10000 128) (r : Fin 10000) (d : Fin 128) :
    ∑ c : Fin 10000, term A f r d c.val = Cert.Spec.support A f r d := by
  unfold Cert.Spec.support
  exact Finset.sum_congr rfl fun c _ => term_inside A f r d c.val c.isLt

/-- After a point with k = 0 the node accumulator holds the first tile's sum added to zero. -/
theorem accN_reset (c : Dev nD) (t : Fin cfg0.N) (h0 : t.val % 3 = 0) (p : Fin 400) (d : Fin 128) :
    (outsAt (F := Ideal) m c t.val t.isLt).2.1 (ix2 p d)
      = 0 + ∑ q : Fin 4096, term (m ((c : Thread nD τ).loc main_arg1)) (m ((c : Thread nD τ).loc main_arg0)) (rowOf t p) d q.val := by
  rw [outsAt_reset m c t h0]
  show k0_pay7 _ _ _ (ix2 p d) = _
  rw [pay7_apply, pay1_apply]
  refine congrArg ((0 : EReal) + ·) (Finset.sum_congr rfl fun q _ => ?_)
  refine (plain_term m c t (by omega) _ _ p d (fun q hq => tileN_apply m c t p q hq) q).trans ?_
  exact congrArg (term _ _ _ d) (by omega)

/-- After a point with k = 1: what the point before left plus the second tile's sum. -/
theorem accN_plain (c : Dev nD) (t : Fin cfg0.N) (h1 : t.val % 3 = 1) (p : Fin 400) (d : Fin 128) :
    (outsAt (F := Ideal) m c t.val t.isLt).2.1 (ix2 p d)
      = (outsAt (F := Ideal) m c (t.val - 1) (Nat.lt_of_le_of_lt (Nat.sub_le _ _) t.isLt)).2.1 (ix2 p d)
        + ∑ q : Fin 4096, term (m ((c : Thread nD τ).loc main_arg1)) (m ((c : Thread nD τ).loc main_arg0)) (rowOf t p) d (4096 + q.val) := by
  rw [outsAt_plain m c t (by omega) (by omega)]
  show k0_pay7 _ _ _ (ix2 p d) = _
  rw [pay7_apply]
  refine congrArg (_ + ·) (Finset.sum_congr rfl fun q _ => ?_)
  refine (plain_term m c t (by omega) _ _ p d (fun q hq => tileN_apply m c t p q hq) q).trans ?_
  exact congrArg (term _ _ _ d) (by omega)

/-- After a point with k = 2: what the point before left plus the third tile's sum, cut at column 10000. -/
theorem accN_epi (c : Dev nD) (t : Fin cfg0.N) (h2 : t.val % 3 = 2) (p : Fin 400) (d : Fin 128) :
    (outsAt (F := Ideal) m c t.val t.isLt).2.1 (ix2 p d)
      = (outsAt (F := Ideal) m c (t.val - 1) (Nat.lt_of_le_of_lt (Nat.sub_le _ _) t.isLt)).2.1 (ix2 p d)
        + ∑ q : Fin 4096, term (m ((c : Thread nD τ).loc main_arg1)) (m ((c : Thread nD τ).loc main_arg0)) (rowOf t p) d (8192 + q.val) := by
  rw [outsAt_epi m c t h2]
  show k0_pay5 _ _ _ _ (ix2 p d) = _
  rw [pay5_apply]
  refine congrArg (_ + ·) (Finset.sum_congr rfl fun q _ => ?_)
  refine (masked_term m c t _ _ p d (fun q hq => tileN_apply m c t p q hq) q).trans ?_
  exact congrArg (term _ _ _ d) (by omega)

theorem accN_final (c : Dev nD) (t : Fin cfg0.N) (h2 : t.val % 3 = 2) (p : Fin 400) (d : Fin 128) :
    (outsAt (F := Ideal) m c t.val t.isLt).2.1 (ix2 p d)
      = Cert.Spec.support (m ((c : Thread nD τ).loc main_arg1)) (m ((c : Thread nD τ).loc main_arg0)) (rowOf t p) d := by
  have ht1 : t.val - 1 < cfg0.N := Nat.lt_of_le_of_lt (Nat.sub_le _ _) t.isLt
  have ht0 : t.val - 1 - 1 < cfg0.N := Nat.lt_of_le_of_lt (Nat.sub_le _ _) ht1
  have e2 := accN_epi m c t h2 p d
  have e1 := accN_plain m c ⟨t.val - 1, ht1⟩ (by show (t.val - 1) % 3 = 1; omega) p d
  have e0 := accN_reset m c ⟨t.val - 1 - 1, ht0⟩ (by show (t.val - 1 - 1) % 3 = 0; omega) p d
  have r1 : rowOf ⟨t.val - 1, ht1⟩ p = rowOf t p := rowOf_pred t ht1 (by omega) p
  have r0 : rowOf ⟨t.val - 1 - 1, ht0⟩ p = rowOf t p := (rowOf_pred ⟨t.val - 1, ht1⟩ ht0 (by show ¬(t.val - 1) % 3 = 0; omega) p).trans r1
  rw [r1] at e1
  rw [r0] at e0
  refine e2.trans ?_
  refine (congrArg (· + _) (e1.trans (congrArg (· + _) e0))).trans ?_
  refine (Cert.Spec.tiles_sum (term _ _ (rowOf t p) d) (fun n hn => term_outside _ _ _ _ n hn)).trans ?_
  exact sum_term_eq_support _ _ _ _

/-- After a point with k = 0 the edge accumulator holds the first tile's sum added to zero. -/
theorem accE_reset (c : Dev nD) (t : Fin cfg0.N) (h0 : t.val % 3 = 0) (p : Fin 400) (d : Fin 128) :
    (outsAt (F := Ideal) m c t.val t.isLt).2.2 (ix2 p d)
      = 0 + ∑ q : Fin 4096, term (m ((c : Thread nD τ).loc main_arg2)) (m ((c : Thread nD τ).loc main_arg0)) (rowOf t p) d q.val := by
  rw [outsAt_reset m c t h0]
  show k0_pay8 _ _ _ (ix2 p d) = _
  rw [pay8_apply, pay2_apply]
  refine congrArg ((0 : EReal) + ·) (Finset.sum_congr rfl fun q _ => ?_)
  refine (plain_term m c t (by omega) _ _ p d (fun q hq => tileE_apply m c t p q hq) q).trans ?_
  exact congrArg (term _ _ _ d) (by omega)

/-- After a point with k = 1: what the point before left plus the second tile's sum. -/
theorem accE_plain (c : Dev nD) (t : Fin cfg0.N) (h1 : t.val % 3 = 1) (p : Fin 400) (d : Fin 128) :
    (outsAt (F := Ideal) m c t.val t.isLt).2.2 (ix2 p d)
      = (outsAt (F := Ideal) m c (t.val - 1) (Nat.lt_of_le_of_lt (Nat.sub_le _ _) t.isLt)).2.2 (ix2 p d)
        + ∑ q : Fin 4096, term (m ((c : Thread nD τ).loc main_arg2)) (m ((c : Thread nD τ).loc main_arg0)) (rowOf t p) d (4096 + q.val) := by
  rw [outsAt_plain m c t (by omega) (by omega)]
  show k0_pay8 _ _ _ (ix2 p d) = _
  rw [pay8_apply]
  refine congrArg (_ + ·) (Finset.sum_congr rfl fun q _ => ?_)
  refine (plain_term m c t (by omega) _ _ p d (fun q hq => tileE_apply m c t p q hq) q).trans ?_
  exact congrArg (term _ _ _ d) (by omega)

/-- After a point with k = 2: what the point before left plus the third tile's sum, cut at column 10000. -/
theorem accE_epi (c : Dev nD) (t : Fin cfg0.N) (h2 : t.val % 3 = 2) (p : Fin 400) (d : Fin 128) :
    (outsAt (F := Ideal) m c t.val t.isLt).2.2 (ix2 p d)
      = (outsAt (F := Ideal) m c (t.val - 1) (Nat.lt_of_le_of_lt (Nat.sub_le _ _) t.isLt)).2.2 (ix2 p d)
        + ∑ q : Fin 4096, term (m ((c : Thread nD τ).loc main_arg2)) (m ((c : Thread nD τ).loc main_arg0)) (rowOf t p) d (8192 + q.val) := by
  rw [outsAt_epi m c t h2]
  show k0_pay6 _ _ _ _ (ix2 p d) = _
  rw [pay6_apply]
  refine congrArg (_ + ·) (Finset.sum_congr rfl fun q _ => ?_)
  refine (masked_term m c t _ _ p d (fun q hq => tileE_apply m c t p q hq) q).trans ?_
  exact congrArg (term _ _ _ d) (by omega)

theorem accE_final (c : Dev nD) (t : Fin cfg0.N) (h2 : t.val % 3 = 2) (p : Fin 400) (d : Fin 128) :
    (outsAt (F := Ideal) m c t.val t.isLt).2.2 (ix2 p d)
      = Cert.Spec.support (m ((c : Thread nD τ).loc main_arg2)) (m ((c : Thread nD τ).loc main_arg0)) (rowOf t p) d := by
  have ht1 : t.val - 1 < cfg0.N := Nat.lt_of_le_of_lt (Nat.sub_le _ _) t.isLt
  have ht0 : t.val - 1 - 1 < cfg0.N := Nat.lt_of_le_of_lt (Nat.sub_le _ _) ht1
  have e2 := accE_epi m c t h2 p d
  have e1 := accE_plain m c ⟨t.val - 1, ht1⟩ (by show (t.val - 1) % 3 = 1; omega) p d
  have e0 := accE_reset m c ⟨t.val - 1 - 1, ht0⟩ (by show (t.val - 1 - 1) % 3 = 0; omega) p d
  have r1 : rowOf ⟨t.val - 1, ht1⟩ p = rowOf t p := rowOf_pred t ht1 (by omega) p
  have r0 : rowOf ⟨t.val - 1 - 1, ht0⟩ p = rowOf t p := (rowOf_pred ⟨t.val - 1, ht1⟩ ht0 (by show ¬(t.val - 1) % 3 = 0; omega) p).trans r1
  rw [r1] at e1
  rw [r0] at e0
  refine e2.trans ?_
  refine (congrArg (· + _) (e1.trans (congrArg (· + _) e0))).trans ?_
  refine (Cert.Spec.tiles_sum (term _ _ (rowOf t p) d) (fun n hn => term_outside _ _ _ _ n hn)).trans ?_
  exact sum_term_eq_support _ _ _ _
/-! ## The output block -/

/-- At a point with k = 2 the output buffer holds the epilogue of the two accumulators as the point leaves them. -/
theorem out_epi (c : Dev nD) (t : Fin cfg0.N) (h2 : t.val % 3 = 2) (p : Fin 400) (q : Fin 128) :
    (outsAt (F := Ideal) m c t.val t.isLt).1 (ix2 p q)
      = k0_pay9 (F := Ideal) (outsAt (F := Ideal) m c t.val t.isLt).2.1 (wnBlk m c t) (bnBlk m c t)
          (outsAt (F := Ideal) m c t.val t.isLt).2.2 (weBlk m c t) (beBlk m c t) (ix2 p q) := by
  rw [outsAt_epi m c t h2]

theorem out_final (c : Dev nD) (t : Fin cfg0.N) (h2 : t.val % 3 = 2) (p : Fin 400) (q : Fin 128) :
    (outsAt (F := Ideal) m c t.val t.isLt).1 (ix2 p q)
      = Cert.Spec.convAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (rowOf t p) q := by
  rw [out_epi m c t h2, pay9_apply]
  unfold Cert.Spec.convAt Cert.Spec.affine
  rw [wn_eq, we_eq, bn_apply, be_apply]
  refine congrArg₂ (· + ·) (congrArg (max · 0) (congrArg (· + _) (Finset.sum_congr rfl fun d _ => ?_))) (congrArg (· + _) (Finset.sum_congr rfl fun d _ => ?_))
  · exact congrArg (· * _) (accN_final m c t h2 p d)
  · exact congrArg (· * _) (accE_final m c t h2 p d)

end Cert.KernelIdeal.Val

end
-- ==== Proof.ValueSide.Final.lean ====
/-
  The result array after the run, over the extended reals. The output window's block at the point 3 i + 2 is
  rows 400 i … 400 i + 399 of the result, written back there with what the epilogue stored; the 25 blocks
  tile the array, so the array ends as the convolution of the seven arguments.
-/
import proofs.«148361_g77704548319642_cont_9to1_m_740_8_alg».proof.Proof.ValueSide.Accum
import proofs.«148361_g77704548319642_cont_9to1_m_740_8_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Hand

variable (m : (ℓ : Loc nD τ sig) → Buf (Elt Ideal) ℓ)

/-- The output window's block index at the point t is (t / 3, 0): the index map, decided over the grid. -/
theorem idx_facts7 : ∀ t : Fin cfg0.N, win0_7.index t (0 : Fin 2) = t.val / 3 ∧ win0_7.index t (1 : Fin 2) = 0 :=
  (by decide +kernel : ∀ t : Fin grid0.N, win0_7.index t (0 : Fin 2) = t.val / 3 ∧ win0_7.index t (1 : Fin 2) = 0)

/-- What a point with k = 2 writes back is its block of the convolution: rows 400 (t / 3) … 400 (t / 3) + 399. -/
theorem flushed_eq (c : Dev nD) (t : Fin cfg0.N) (hf : (cfg0.win 7).flush t = true) :
    (dats (F := Ideal) m 0 c).flushed 7 t
      = ((cfg0.win 7).blk t).view.read (Elt Ideal) (Cert.Spec.conv (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))) := by
  have h2 : t.val % 3 = 2 := (flush0_7 t).mp hf
  show (cfg0.win 7).cut (grid0.coords t) ((dats (F := Ideal) m 0 c).after 7 t) = _
  rw [after_7]
  obtain ⟨e0, e1⟩ := idx_facts7 t
  funext y
  have hy0 : (y 0).val < 400 := (y 0).isLt
  have hy1 : (y 1).val < 128 := (y 1).isLt
  show (outsAt (F := Ideal) m c t.val t.isLt).1 ((cfg0.win 7).xinj (grid0.coords t) y)
      = Cert.Spec.conv (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) (((cfg0.win 7).blk t).view.emb y)
  have hx : (cfg0.win 7).xinj (grid0.coords t) y = ix2 (⟨(y 0).val, hy0⟩ : Fin 400) (⟨(y 1).val, hy1⟩ : Fin 128) := by
    funext a
    match a with
    | ⟨0, _⟩ => rfl
    | ⟨1, _⟩ => rfl
  have he : ((cfg0.win 7).blk t).view.emb y = ix2 (rowOf t ⟨(y 0).val, hy0⟩) (⟨(y 1).val, hy1⟩ : Fin 128) := by
    funext a; apply Fin.ext
    match a with
    | ⟨0, _⟩ =>
      show win0_7.index t (0 : Fin 2) * 400 + 1 * (y 0).val = 400 * (t.val / 3) + (y 0).val
      omega
    | ⟨1, _⟩ =>
      show win0_7.index t (1 : Fin 2) * 128 + 1 * (y 1).val = (y 1).val
      omega
  rw [hx, he, out_final m c t h2, Cert.Spec.conv_ix2]

/-- An index of the result array is in the block of the point t iff each coordinate is in the block's range. -/
theorem mem_blk7 (t : Fin cfg0.N) (i : S10000x128.Idx) :
    i ∈ ((cfg0.win 7).blk t).view.set
      ↔ ∀ a : Fin 2, win0_7.index t a * S400x128.size a ≤ (i a).val ∧ (i a).val < win0_7.index t a * S400x128.size a + S400x128.size a := by
  show i ∈ ((View.whole main_v0).slice (win0_7.rect t)).set ↔ _
  rw [View.set_slice_whole, Rect.mem_set_unit]
  exact Iff.rfl

/-- The 25 blocks written back at the points 3 i + 2 tile the array by rows: the row r lies in the block of the
    point 3 (r / 400) + 2. So the array ends holding the convolution. -/
theorem final_out (c : Dev nD) :
    (dats (F := Ideal) m 0 c).arrAt 7 cfg0.N
      = Cert.Spec.conv (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) :=
  (dats (F := Ideal) m 0 c).arrAt_eq_of_cover 7 _ (flushed_eq m c) fun i => by
    have hi0 : ((i 0 : Fin 10000) : Nat) < 10000 := (i 0).isLt
    have hi1 : ((i 1 : Fin 128) : Nat) < 128 := (i 1).isLt
    have hN : cfg0.N = 75 := N_0
    have ht : 3 * (((i 0 : Fin 10000) : Nat) / 400) + 2 < cfg0.N := by omega
    refine ⟨⟨3 * (((i 0 : Fin 10000) : Nat) / 400) + 2, ht⟩, (flush0_7 _).mpr (by dsimp only; omega), ?_⟩
    obtain ⟨e0, e1⟩ := idx_facts7 ⟨3 * (((i 0 : Fin 10000) : Nat) / 400) + 2, ht⟩
    dsimp only at e0
    rw [mem_blk7]
    intro a
    match a with
    | ⟨0, _⟩ =>
      show win0_7.index _ (0 : Fin 2) * 400 ≤ ((i 0 : Fin 10000) : Nat) ∧ ((i 0 : Fin 10000) : Nat) < win0_7.index _ (0 : Fin 2) * 400 + 400
      rw [e0]; omega
    | ⟨1, _⟩ =>
      show win0_7.index _ (1 : Fin 2) * 128 ≤ ((i 1 : Fin 128) : Nat) ∧ ((i 1 : Fin 128) : Nat) < win0_7.index _ (1 : Fin 2) * 128 + 128
      rw [e1]; omega

end Cert.KernelIdeal.Val

end
-- ==== Proof.RefSide.RefValue.lean ====
/-
  The reference program's result, read at the extended reals, is the convolution of the specification:
  both of its branches are a row of (adjacency · feats) contracted with a weight matrix plus a bias entry,
  the node branch passed through max(·, 0), and the two added.
-/
import proofs.«148361_g77704548319642_cont_9to1_m_740_8_alg».proof.Proof.Gen.ReferenceIdeal.Read
import proofs.«148361_g77704548319642_cont_9to1_m_740_8_alg».proof.Proof.Spec

noncomputable section

namespace Cert.ReferenceIdeal.RefValue

open Cert.ReferenceIdeal Cert.ReferenceIdeal.Gen Idealize.ShloMosaic Idealize.ShloMosaic.ValueIdx

/-- The reference's last stage is the specification's convolution of the seven arguments. -/
theorem ref_is_conv (x0 : (⟨S10000x128, .f32⟩ : BufTy).Contents (Elt Ideal)) (x1 x2 : (⟨S10000x10000, .f32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) :
    Cert.ReferenceIdeal.Read.val_main_v11 (F := Ideal) x0 x1 x2 x3 x4 x5 x6 = Cert.Spec.conv x0 x1 x2 x3 x4 x5 x6 := by
  funext i
  obtain ⟨r, q, rfl⟩ : ∃ (r : Fin 10000) (q : Fin 128), i = ix2 r q := ⟨i 0, i 1, eq_ix2 i⟩
  rw [Cert.Spec.conv_ix2]
  unfold Cert.Spec.convAt Cert.Spec.affine Cert.Spec.support
  rw [Read.val_main_v11_apply, Read.val_main_v10_apply, Read.val_main_v4_apply, Read.val_main_v1_apply,
    Read.val_main_v3_apply, Read.val_main_v2_apply, Read.val_main_call0_v0_apply, Read.val_main_call0_cst_apply,
    Read.val_main_v9_apply, Read.val_main_v6_apply, Read.val_main_v8_apply, Read.val_main_v7_apply]
  simp only [Read.val_main_v0_apply, Read.val_main_v5_apply]
  -- each operand element's index, by coordinates: row r of an adjacency against column d of the features, then column q of a weight
  have n1 : ∀ k : Fin 128, Read.lidx_main_v1 (ix2 r q) k = ix2 r k := fun k =>
    funext fun a => Fin.ext (by match a with | ⟨0, _⟩ => rfl | ⟨1, _⟩ => rfl)
  have n2 : ∀ k : Fin 128, Read.ridx_main_v1 (ix2 r q) k = ix2 k q := fun k =>
    funext fun a => Fin.ext (by match a with | ⟨0, _⟩ => rfl | ⟨1, _⟩ => rfl)
  have n3 : ∀ (d : Fin 128) (c : Fin 10000), Read.lidx_main_v0 (ix2 r d) c = ix2 r c := fun d c =>
    funext fun a => Fin.ext (by match a with | ⟨0, _⟩ => rfl | ⟨1, _⟩ => rfl)
  have n4 : ∀ (d : Fin 128) (c : Fin 10000), Read.ridx_main_v0 (ix2 r d) c = ix2 c d := fun d c =>
    funext fun a => Fin.ext (by match a with | ⟨0, _⟩ => rfl | ⟨1, _⟩ => rfl)
  have n5 : Read.idx_main_v2 (Read.idx_main_v3 (ix2 r q)) = ix1 q :=
    funext fun a => Fin.ext (by match a with | ⟨0, _⟩ => rfl)
  have e1 : ∀ k : Fin 128, Read.lidx_main_v6 (ix2 r q) k = ix2 r k := fun k =>
    funext fun a => Fin.ext (by match a with | ⟨0, _⟩ => rfl | ⟨1, _⟩ => rfl)
  have e2 : ∀ k : Fin 128, Read.ridx_main_v6 (ix2 r q) k = ix2 k q := fun k =>
    funext fun a => Fin.ext (by match a with | ⟨0, _⟩ => rfl | ⟨1, _⟩ => rfl)
  have e3 : ∀ (d : Fin 128) (c : Fin 10000), Read.lidx_main_v5 (ix2 r d) c = ix2 r c := fun d c =>
    funext fun a => Fin.ext (by match a with | ⟨0, _⟩ => rfl | ⟨1, _⟩ => rfl)
  have e4 : ∀ (d : Fin 128) (c : Fin 10000), Read.ridx_main_v5 (ix2 r d) c = ix2 c d := fun d c =>
    funext fun a => Fin.ext (by match a with | ⟨0, _⟩ => rfl | ⟨1, _⟩ => rfl)
  have e5 : Read.idx_main_v7 (Read.idx_main_v8 (ix2 r q)) = ix1 q :=
    funext fun a => Fin.ext (by match a with | ⟨0, _⟩ => rfl)
  simp only [n1, n2, n3, n4, n5, e1, e2, e3, e4, e5, Ideal.addf_def, Ideal.maximumf_def, Ideal.ofBits_def,
    Ideal.ofBits_zero_f32]

end Cert.ReferenceIdeal.RefValue

end
-- ==== Proof.lean ====
/-
  The certificate of the factor-graph convolution kernel against its reference.
  The kernel tiles the two 10000 x 10000 adjacency products over 25 row tiles and 3 contraction tiles,
  accumulating both in scratch and finishing with the dense projections, the biases, the relu and the sum at
  the last contraction tile. Over the extended reals a change of float format is the identity and a sum may be
  tiled and accumulated in any order, the masked columns of the last tile contribute zero, and the zero padding
  of the feature matrix contributes zero: so the result array is relu(node_adj · feats · W_n + b_n) +
  (edge_adj · feats · W_e + b_e), entry by entry, which is what the reference computes. No finiteness is needed.
  The frames of the two printed kernels are one proof, generic in the float instance: the body's three control
  cases run symbolically, the accumulators' contents tracked from point to point. The reference's frame is its run.
-/
import proofs.«148361_g77704548319642_cont_9to1_m_740_8_alg».proof.Defs
import proofs.«148361_g77704548319642_cont_9to1_m_740_8_alg».proof.Proof.Gen.Kernel
import proofs.«148361_g77704548319642_cont_9to1_m_740_8_alg».proof.Proof.Gen.KernelIdeal
import proofs.«148361_g77704548319642_cont_9to1_m_740_8_alg».proof.Proof.Gen.ReferenceIdeal
import proofs.«148361_g77704548319642_cont_9to1_m_740_8_alg».proof.Proof.Gen.Pre_finite_inputs
import proofs.«148361_g77704548319642_cont_9to1_m_740_8_alg».proof.Proof.Gen.ReferenceIdeal.Run
import proofs.«148361_g77704548319642_cont_9to1_m_740_8_alg».proof.Proof.Gen.ReferenceIdeal.Read
import proofs.«148361_g77704548319642_cont_9to1_m_740_8_alg».proof.Proof.BitsSide.Body
import proofs.«148361_g77704548319642_cont_9to1_m_740_8_alg».proof.Proof.IdealSide.Body
import proofs.«148361_g77704548319642_cont_9to1_m_740_8_alg».proof.Proof.ValueSide.Final
import proofs.«148361_g77704548319642_cont_9to1_m_740_8_alg».proof.Proof.RefSide.RefValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_k : Cert.frame_Kernel (hKernel := Cert.Kernel.Gen.facts) (hPre_finite_inputs := Cert.Pre_finite_inputs.Gen.facts) :=
  fun m ρ _ => Cert.Kernel.Hand.frame m ρ

/-- The idealized kernel likewise. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the convolution of the seven arguments in their result array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.conv (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)), ?_, ?_⟩
  · refine (θ_run Cert.KernelIdeal.defs _ _).mono (fun r h c => ⟨((h c).1 7).trans (Cert.KernelIdeal.Val.final_out m c), ?_⟩)
      (Cert.KernelIdeal.Hand.run_main (F := Ideal) m ρ)
    exact ⟨((h c).2 Cert.KernelIdeal.main_arg0 (Pipeline.mem_restRefs_of Cert.KernelIdeal.main_arg0 (by decide) (by decide))).trans (Cert.KernelIdeal.Gen.V_main_arg0 m c),
      ((h c).1 0).trans (((Cert.KernelIdeal.Hand.dats m 0 c).arrAt_in 0 rfl _).trans ((Cert.KernelIdeal.Hand.A_eq m c 0).trans (Cert.KernelIdeal.Gen.V_main_arg1 m c))),
      ((h c).1 1).trans (((Cert.KernelIdeal.Hand.dats m 0 c).arrAt_in 1 rfl _).trans ((Cert.KernelIdeal.Hand.A_eq m c 1).trans (Cert.KernelIdeal.Gen.V_main_arg2 m c))),
      ((h c).1 3).trans (((Cert.KernelIdeal.Hand.dats m 0 c).arrAt_in 3 rfl _).trans ((Cert.KernelIdeal.Hand.A_eq m c 3).trans (Cert.KernelIdeal.Gen.V_main_arg3 m c))),
      ((h c).2 Cert.KernelIdeal.main_arg4 (Pipeline.mem_restRefs_of Cert.KernelIdeal.main_arg4 (by decide) (by decide))).trans (Cert.KernelIdeal.Gen.V_main_arg4 m c),
      ((h c).1 5).trans (((Cert.KernelIdeal.Hand.dats m 0 c).arrAt_in 5 rfl _).trans ((Cert.KernelIdeal.Hand.A_eq m c 5).trans (Cert.KernelIdeal.Gen.V_main_arg5 m c))),
      ((h c).2 Cert.KernelIdeal.main_arg6 (Pipeline.mem_restRefs_of Cert.KernelIdeal.main_arg6 (by decide) (by decide))).trans (Cert.KernelIdeal.Gen.V_main_arg6 m c)⟩
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v11_eq, Cert.ReferenceIdeal.RefValue.ref_is_conv,
      (hagree c).1, (hagree c).2.1, (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
